-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v48)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v48) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v208) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S200000x256 : Shape := ⟨2, ![200000, 256]⟩
abbrev S10000x256 : Shape := ⟨2, ![10000, 256]⟩
abbrev S50x256 : Shape := ⟨2, ![50, 256]⟩
abbrev S2x3x256x256 : Shape := ⟨4, ![2, 3, 256, 256]⟩
abbrev S2x3x256 : Shape := ⟨3, ![2, 3, 256]⟩
abbrev S128x256 : Shape := ⟨2, ![128, 256]⟩
abbrev S128 : Shape := ⟨1, ![128]⟩
abbrev S400000 : Shape := ⟨1, ![400000]⟩
abbrev S_ : Shape := ⟨0, ![]⟩

class Facts : Prop where
  bcast_S_S200000x256 : S_.BroadcastsInDim S200000x256 (![] : Fin 0 → Fin S200000x256.rank)
  reducesTo_S200000x256_S_d0_1 : S200000x256.ReducesTo [0, 1] S_
  h_S_ : 0 < S_.numel
  bcast_S_S10000x256 : S_.BroadcastsInDim S10000x256 (![] : Fin 0 → Fin S10000x256.rank)
  reducesTo_S10000x256_S_d0_1 : S10000x256.ReducesTo [0, 1] S_
  bcast_S_S50x256 : S_.BroadcastsInDim S50x256 (![] : Fin 0 → Fin S50x256.rank)
  reducesTo_S50x256_S_d0_1 : S50x256.ReducesTo [0, 1] S_
  bcast_S_S2x3x256x256 : S_.BroadcastsInDim S2x3x256x256 (![] : Fin 0 → Fin S2x3x256x256.rank)
  reducesTo_S2x3x256x256_S_d0_1_2_3 : S2x3x256x256.ReducesTo [0, 1, 2, 3] S_
  bcast_S_S2x3x256 : S_.BroadcastsInDim S2x3x256 (![] : Fin 0 → Fin S2x3x256.rank)
  reducesTo_S2x3x256_S_d0_1_2 : S2x3x256.ReducesTo [0, 1, 2] S_
  bcast_S_S128x256 : S_.BroadcastsInDim S128x256 (![] : Fin 0 → Fin S128x256.rank)
  reducesTo_S128x256_S_d0_1 : S128x256.ReducesTo [0, 1] S_
  bcast_S_S128 : S_.BroadcastsInDim S128 (![] : Fin 0 → Fin S128.rank)
  reducesTo_S128_S_d0 : S128.ReducesTo [0] S_

variable [Facts]

def fn_part2 {F : FTy → Type} [FloatOps F] (main_arg7 : FVec F S128 .f32) (main_v33 : IVec S_ 1) : IVec S_ 1 :=
  let main_v34 : FVec F S128 .f32 := Host.absf main_arg7
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  main_v38

def fn_part1 {F : FTy → Type} [FloatOps F] (main_arg4 : FVec F S2x3x256 .f32) (main_arg5 : FVec F S2x3x256x256 .f32) (main_arg6 : FVec F S128x256 .f32) (main_arg7 : FVec F S128 .f32) (main_v13 : IVec S_ 1) (main_v16 : IVec S2x3x256x256 1) : IVec S_ 1 :=
  let main_c_5 : IVec S_ 1 := constantI S_ 1 1#1
  let main_v17 : IVec S_ 1 := (fun x v => Host.reduce IntOp.andi x v reducesTo_S2x3x256x256_S_d0_1_2_3 h_S_) main_v16 main_c_5
  let main_v18 : IVec S_ 1 := andi main_v13 main_v17
  let main_v19 : FVec F S2x3x256 .f32 := Host.absf main_arg4
  let main_cst_6 : FVec F S_ .f32 := constant S_ .f32 0x7F800000#32
  let main_v20 : FVec F S2x3x256 .f32 := broadcastInDim S2x3x256 ![] bcast_S_S2x3x256 main_cst_6
  let main_v21 : IVec S2x3x256 1 := cmpf .olt main_v19 main_v20
  let main_c_7 : IVec S_ 1 := constantI S_ 1 1#1
  let main_v22 : IVec S_ 1 := (fun x v => Host.reduce IntOp.andi x v reducesTo_S2x3x256_S_d0_1_2 h_S_) main_v21 main_c_7
  let main_v23 : IVec S_ 1 := andi main_v18 main_v22
  let main_v24 : FVec F S2x3x256x256 .f32 := Host.absf main_arg5
  let main_cst_8 : FVec F S_ .f32 := constant S_ .f32 0x7F800000#32
  let main_v25 : FVec F S2x3x256x256 .f32 := broadcastInDim S2x3x256x256 ![] bcast_S_S2x3x256x256 main_cst_8
  let main_v26 : IVec S2x3x256x256 1 := cmpf .olt main_v24 main_v25
  let main_c_9 : IVec S_ 1 := constantI S_ 1 1#1
  let main_v27 : IVec S_ 1 := (fun x v => Host.reduce IntOp.andi x v reducesTo_S2x3x256x256_S_d0_1_2_3 h_S_) main_v26 main_c_9
  let main_v28 : IVec S_ 1 := andi main_v23 main_v27
  let main_v29 : FVec F S128x256 .f32 := Host.absf main_arg6
  let main_cst_10 : FVec F S_ .f32 := constant S_ .f32 0x7F800000#32
  let main_v30 : FVec F S128x256 .f32 := broadcastInDim S128x256 ![] bcast_S_S128x256 main_cst_10
  let main_v31 : IVec S128x256 1 := cmpf .olt main_v29 main_v30
  let main_c_11 : IVec S_ 1 := constantI S_ 1 1#1
  let main_v32 : IVec S_ 1 := (fun x v => Host.reduce IntOp.andi x v reducesTo_S128x256_S_d0_1 h_S_) main_v31 main_c_11
  let main_v33 : IVec S_ 1 := andi main_v28 main_v32
  fn_part2 (F := F) main_arg7 main_v33

def fn {F : FTy → Type} [FloatOps F] (main_arg0 : FVec F S200000x256 .f32) (main_arg1 : FVec F S10000x256 .f32) (main_arg2 : FVec F S50x256 .f32) (main_arg3 : FVec F S2x3x256x256 .f32) (main_arg4 : FVec F S2x3x256 .f32) (main_arg5 : FVec F S2x3x256x256 .f32) (main_arg6 : FVec F S128x256 .f32) (main_arg7 : FVec F S128 .f32) (main_arg8 : IVec S400000 32) (main_arg9 : IVec S400000 32) (main_arg10 : IVec S400000 32) (main_arg11 : IVec S400000 32) (main_arg12 : IVec S400000 32) (main_arg13 : IVec S400000 32) : IVec S_ 1 :=
  let main_v0 : FVec F S200000x256 .f32 := Host.absf main_arg0
  let main_cst : FVec F S_ .f32 := constant S_ .f32 0x7F800000#32
  let main_v1 : FVec F S200000x256 .f32 := broadcastInDim S200000x256 ![] bcast_S_S200000x256 main_cst
  let main_v2 : IVec S200000x256 1 := cmpf .olt main_v0 main_v1
  let main_c : IVec S_ 1 := constantI S_ 1 1#1
  let main_v3 : IVec S_ 1 := (fun x v => Host.reduce IntOp.andi x v reducesTo_S200000x256_S_d0_1 h_S_) main_v2 main_c
  let main_v4 : FVec F S10000x256 .f32 := Host.absf main_arg1
  let main_cst_0 : FVec F S_ .f32 := constant S_ .f32 0x7F800000#32
  let main_v5 : FVec F S10000x256 .f32 := broadcastInDim S10000x256 ![] bcast_S_S10000x256 main_cst_0
  let main_v6 : IVec S10000x256 1 := cmpf .olt main_v4 main_v5
  let main_c_1 : IVec S_ 1 := constantI S_ 1 1#1
  let main_v7 : IVec S_ 1 := (fun x v => Host.reduce IntOp.andi x v reducesTo_S10000x256_S_d0_1 h_S_) main_v6 main_c_1
  let main_v8 : IVec S_ 1 := andi main_v3 main_v7
  let main_v9 : FVec F S50x256 .f32 := Host.absf main_arg2
  let main_cst_2 : FVec F S_ .f32 := constant S_ .f32 0x7F800000#32
  let main_v10 : FVec F S50x256 .f32 := broadcastInDim S50x256 ![] bcast_S_S50x256 main_cst_2
  let main_v11 : IVec S50x256 1 := cmpf .olt main_v9 main_v10
  let main_c_3 : IVec S_ 1 := constantI S_ 1 1#1
  let main_v12 : IVec S_ 1 := (fun x v => Host.reduce IntOp.andi x v reducesTo_S50x256_S_d0_1 h_S_) main_v11 main_c_3
  let main_v13 : IVec S_ 1 := andi main_v8 main_v12
  let main_v14 : FVec F S2x3x256x256 .f32 := Host.absf main_arg3
  let main_cst_4 : FVec F S_ .f32 := constant S_ .f32 0x7F800000#32
  let main_v15 : FVec F S2x3x256x256 .f32 := broadcastInDim S2x3x256x256 ![] bcast_S_S2x3x256x256 main_cst_4
  let main_v16 : IVec S2x3x256x256 1 := cmpf .olt main_v14 main_v15
  fn_part1 (F := F) main_arg4 main_arg5 main_arg6 main_arg7 main_v13 main_v16
-- ==== Kernel.lean ====
abbrev S200000x256 : Shape := ⟨2, ![200000, 256]⟩
abbrev S10000x256 : Shape := ⟨2, ![10000, 256]⟩
abbrev S50x256 : Shape := ⟨2, ![50, 256]⟩
abbrev S2x3x256x256 : Shape := ⟨4, ![2, 3, 256, 256]⟩
abbrev S2x3x256 : Shape := ⟨3, ![2, 3, 256]⟩
abbrev S128x256 : Shape := ⟨2, ![128, 256]⟩
abbrev S128 : Shape := ⟨1, ![128]⟩
abbrev S400000 : Shape := ⟨1, ![400000]⟩
abbrev S_ : Shape := ⟨0, ![]⟩
abbrev S400000x1 : Shape := ⟨2, ![400000, 1]⟩
abbrev S400000x256 : Shape := ⟨2, ![400000, 256]⟩
abbrev S200000 : Shape := ⟨1, ![200000]⟩
abbrev S1x1x256x256 : Shape := ⟨4, ![1, 1, 256, 256]⟩
abbrev S256x256 : Shape := ⟨2, ![256, 256]⟩
abbrev S1x1x256 : Shape := ⟨3, ![1, 1, 256]⟩
abbrev S256 : Shape := ⟨1, ![256]⟩
abbrev S1x256 : Shape := ⟨2, ![1, 256]⟩
abbrev S200000x1 : Shape := ⟨2, ![200000, 1]⟩
abbrev S5000x256 : Shape := ⟨2, ![5000, 256]⟩
abbrev S5000x1 : Shape := ⟨2, ![5000, 1]⟩
abbrev S256x128 : Shape := ⟨2, ![256, 128]⟩
abbrev S1x128 : Shape := ⟨2, ![1, 128]⟩
abbrev S200000x128 : Shape := ⟨2, ![200000, 128]⟩
abbrev S5000x128 : Shape := ⟨2, ![5000, 128]⟩

abbrev nBuf : Space → Nat
  | .hbm => 71
  | .vmem => 28
  | .smem => 0
  | _ => 0

abbrev bufTy : (tb : Table) → Fin (tcTables nBuf tb) → BufTy
  | .hbm, ⟨0, _⟩ => ⟨S200000x256, .f32⟩
  | .hbm, ⟨1, _⟩ => ⟨S10000x256, .f32⟩
  | .hbm, ⟨2, _⟩ => ⟨S50x256, .f32⟩
  | .hbm, ⟨3, _⟩ => ⟨S2x3x256x256, .f32⟩
  | .hbm, ⟨4, _⟩ => ⟨S2x3x256, .f32⟩
  | .hbm, ⟨5, _⟩ => ⟨S2x3x256x256, .f32⟩
  | .hbm, ⟨6, _⟩ => ⟨S128x256, .f32⟩
  | .hbm, ⟨7, _⟩ => ⟨S128, .f32⟩
  | .hbm, ⟨8, _⟩ => ⟨S400000, .i32⟩
  | .hbm, ⟨9, _⟩ => ⟨S400000, .i32⟩
  | .hbm, ⟨10, _⟩ => ⟨S400000, .i32⟩
  | .hbm, ⟨11, _⟩ => ⟨S400000, .i32⟩
  | .hbm, ⟨12, _⟩ => ⟨S400000, .i32⟩
  | .hbm, ⟨13, _⟩ => ⟨S400000, .i32⟩
  | .hbm, ⟨14, _⟩ => ⟨S_, .i32⟩
  | .hbm, ⟨15, _⟩ => ⟨S400000, .i32⟩
  | .hbm, ⟨16, _⟩ => ⟨S400000, .i1⟩
  | .hbm, ⟨17, _⟩ => ⟨S_, .i32⟩
  | .hbm, ⟨18, _⟩ => ⟨S400000, .i32⟩
  | .hbm, ⟨19, _⟩ => ⟨S400000, .i32⟩
  | .hbm, ⟨20, _⟩ => ⟨S400000, .i32⟩
  | .hbm, ⟨21, _⟩ => ⟨S400000x1, .i32⟩
  | .hbm, ⟨22, _⟩ => ⟨S400000x256, .f32⟩
  | .hbm, ⟨23, _⟩ => ⟨S_, .f32⟩
  | .hbm, ⟨24, _⟩ => ⟨S200000x256, .f32⟩
  | .hbm, ⟨25, _⟩ => ⟨S400000x1, .i32⟩
  | .hbm, ⟨26, _⟩ => ⟨S200000x256, .f32⟩
  | .hbm, ⟨27, _⟩ => ⟨S_, .f32⟩
  | .hbm, ⟨28, _⟩ => ⟨S400000, .f32⟩
  | .hbm, ⟨29, _⟩ => ⟨S_, .f32⟩
  | .hbm, ⟨30, _⟩ => ⟨S200000, .f32⟩
  | .hbm, ⟨31, _⟩ => ⟨S400000x1, .i32⟩
  | .hbm, ⟨32, _⟩ => ⟨S200000, .f32⟩
  | .hbm, ⟨33, _⟩ => ⟨S1x1x256x256, .f32⟩
  | .hbm, ⟨34, _⟩ => ⟨S256x256, .f32⟩
  | .hbm, ⟨35, _⟩ => ⟨S1x1x256, .f32⟩
  | .hbm, ⟨36, _⟩ => ⟨S256, .f32⟩
  | .hbm, ⟨37, _⟩ => ⟨S1x1x256x256, .f32⟩
  | .hbm, ⟨38, _⟩ => ⟨S256x256, .f32⟩
  | .hbm, ⟨39, _⟩ => ⟨S256x256, .f32⟩
  | .hbm, ⟨40, _⟩ => ⟨S256x256, .f32⟩
  | .hbm, ⟨41, _⟩ => ⟨S1x256, .f32⟩
  | .hbm, ⟨42, _⟩ => ⟨S200000x1, .f32⟩
  | .hbm, ⟨43, _⟩ => ⟨S200000x256, .f32⟩
  | .hbm, ⟨44, _⟩ => ⟨S_, .i32⟩
  | .hbm, ⟨45, _⟩ => ⟨S400000, .i32⟩
  | .hbm, ⟨46, _⟩ => ⟨S400000, .i1⟩
  | .hbm, ⟨47, _⟩ => ⟨S_, .i32⟩
  | .hbm, ⟨48, _⟩ => ⟨S400000, .i32⟩
  | .hbm, ⟨49, _⟩ => ⟨S400000, .i32⟩
  | .hbm, ⟨50, _⟩ => ⟨S400000, .i32⟩
  | .hbm, ⟨51, _⟩ => ⟨S400000x1, .i32⟩
  | .hbm, ⟨52, _⟩ => ⟨S400000x256, .f32⟩
  | .hbm, ⟨53, _⟩ => ⟨S_, .f32⟩
  | .hbm, ⟨54, _⟩ => ⟨S200000x256, .f32⟩
  | .hbm, ⟨55, _⟩ => ⟨S400000x1, .i32⟩
  | .hbm, ⟨56, _⟩ => ⟨S200000x256, .f32⟩
  | .hbm, ⟨57, _⟩ => ⟨S1x1x256x256, .f32⟩
  | .hbm, ⟨58, _⟩ => ⟨S256x256, .f32⟩
  | .hbm, ⟨59, _⟩ => ⟨S1x1x256, .f32⟩
  | .hbm, ⟨60, _⟩ => ⟨S256, .f32⟩
  | .hbm, ⟨61, _⟩ => ⟨S1x1x256x256, .f32⟩
  | .hbm, ⟨62, _⟩ => ⟨S256x256, .f32⟩
  | .hbm, ⟨63, _⟩ => ⟨S256x256, .f32⟩
  | .hbm, ⟨64, _⟩ => ⟨S256x256, .f32⟩
  | .hbm, ⟨65, _⟩ => ⟨S1x256, .f32⟩
  | .hbm, ⟨66, _⟩ => ⟨S200000x1, .f32⟩
  | .hbm, ⟨67, _⟩ => ⟨S200000x256, .f32⟩
  | .hbm, ⟨68, _⟩ => ⟨S256x128, .f32⟩
  | .hbm, ⟨69, _⟩ => ⟨S1x128, .f32⟩
  | .hbm, ⟨70, _⟩ => ⟨S200000x128, .f32⟩
  | .local _ .vmem, ⟨0, _⟩ => ⟨S5000x256, .f32⟩
  | .local _ .vmem, ⟨1, _⟩ => ⟨S5000x256, .f32⟩
  | .local _ .vmem, ⟨2, _⟩ => ⟨S5000x1, .f32⟩
  | .local _ .vmem, ⟨3, _⟩ => ⟨S5000x1, .f32⟩
  | .local _ .vmem, ⟨4, _⟩ => ⟨S5000x256, .f32⟩
  | .local _ .vmem, ⟨5, _⟩ => ⟨S5000x256, .f32⟩
  | .local _ .vmem, ⟨6, _⟩ => ⟨S256x256, .f32⟩
  | .local _ .vmem, ⟨7, _⟩ => ⟨S256x256, .f32⟩
  | .local _ .vmem, ⟨8, _⟩ => ⟨S1x256, .f32⟩
  | .local _ .vmem, ⟨9, _⟩ => ⟨S5000x256, .f32⟩
  | .local _ .vmem, ⟨10, _⟩ => ⟨S5000x256, .f32⟩
  | .local _ .vmem, ⟨11, _⟩ => ⟨S5000x256, .f32⟩
  | .local _ .vmem, ⟨12, _⟩ => ⟨S5000x256, .f32⟩
  | .local _ .vmem, ⟨13, _⟩ => ⟨S5000x1, .f32⟩
  | .local _ .vmem, ⟨14, _⟩ => ⟨S5000x1, .f32⟩
  | .local _ .vmem, ⟨15, _⟩ => ⟨S5000x256, .f32⟩
  | .local _ .vmem, ⟨16, _⟩ => ⟨S5000x256, .f32⟩
  | .local _ .vmem, ⟨17, _⟩ => ⟨S256x256, .f32⟩
  | .local _ .vmem, ⟨18, _⟩ => ⟨S256x256, .f32⟩
  | .local _ .vmem, ⟨19, _⟩ => ⟨S1x256, .f32⟩
  | .local _ .vmem, ⟨20, _⟩ => ⟨S5000x256, .f32⟩
  | .local _ .vmem, ⟨21, _⟩ => ⟨S5000x256, .f32⟩
  | .local _ .vmem, ⟨22, _⟩ => ⟨S5000x256, .f32⟩
  | .local _ .vmem, ⟨23, _⟩ => ⟨S5000x256, .f32⟩
  | .local _ .vmem, ⟨24, _⟩ => ⟨S256x128, .f32⟩
  | .local _ .vmem, ⟨25, _⟩ => ⟨S1x128, .f32⟩
  | .local _ .vmem, ⟨26, _⟩ => ⟨S5000x128, .f32⟩
  | .local _ .vmem, ⟨27, _⟩ => ⟨S5000x128, .f32⟩
  | _, _ => ⟨S200000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_c : Ref sig .tc := ⟨.hbm, 14, rfl⟩
abbrev main_v0 : Ref sig .tc := ⟨.hbm, 15, rfl⟩
abbrev main_v1 : Ref sig .tc := ⟨.hbm, 16, rfl⟩
abbrev main_c_0 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_cst : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_cst_1 : Ref sig .tc := ⟨.hbm, 27, rfl⟩
abbrev main_v10 : Ref sig .tc := ⟨.hbm, 28, rfl⟩
abbrev main_cst_2 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_c_3 : Ref sig .tc := ⟨.hbm, 44, rfl⟩
abbrev main_v25 : Ref sig .tc := ⟨.hbm, 45, rfl⟩
abbrev main_v26 : Ref sig .tc := ⟨.hbm, 46, rfl⟩
abbrev main_c_4 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_cst_5 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg6_1 : Ref sig .tc := ⟨.vmem, 21, rfl⟩
abbrev cc2_stg0_0 : Ref sig .tc := ⟨.vmem, 22, rfl⟩
abbrev cc2_stg0_1 : Ref sig .tc := ⟨.vmem, 23, rfl⟩
abbrev cc2_stg1_0 : Ref sig .tc := ⟨.vmem, 24, rfl⟩
abbrev cc2_stg2_0 : Ref sig .tc := ⟨.vmem, 25, rfl⟩
abbrev cc2_stg3_0 : Ref sig .tc := ⟨.vmem, 26, rfl⟩
abbrev cc2_stg3_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem6_1 : DmaSem sig := 21
abbrev cc2_sem0_0 : DmaSem sig := 22
abbrev cc2_sem0_1 : DmaSem sig := 23
abbrev cc2_sem1_0 : DmaSem sig := 24
abbrev cc2_sem2_0 : DmaSem sig := 25
abbrev cc2_sem3_0 : DmaSem sig := 26
abbrev cc2_sem3_1 : DmaSem sig := 27

abbrev nD : Nat := 1
abbrev τ : Topo := Topo.v7x

variable {F : FTy → Type} [FloatOps F]

abbrev grid0 : Pipeline.Grid := ⟨1, ![40], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![40], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S256x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S256x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x256 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x256 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![40], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S256x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  bcast_S_S400000 : S_.BroadcastsInDim S400000 (![] : Fin 0 → Fin S400000.rank)
  bcast_S400000_S400000x1_0 : S400000.BroadcastsInDim S400000x1 (![0] : Fin 1 → Fin S400000x1.rank)
  bcast_S_S200000x256 : S_.BroadcastsInDim S200000x256 (![] : Fin 0 → Fin S200000x256.rank)
  bcast_S_S200000 : S_.BroadcastsInDim S200000 (![] : Fin 0 → Fin S200000.rank)
  slices_S2x3x256x256_S1x1x256x256_0_0_0_0 : S2x3x256x256.Slices ![0, 0, 0, 0] S1x1x256x256
  shapeCasts_S1x1x256x256_S256x256 : S1x1x256x256.ShapeCasts S256x256
  slices_S2x3x256_S1x1x256_0_0_0 : S2x3x256.Slices ![0, 0, 0] S1x1x256
  shapeCasts_S1x1x256_S256 : S1x1x256.ShapeCasts S256
  transposes_S256x256_S256x256_1_0 : S256x256.Transposes [1, 0] S256x256
  shapeCasts_S256_S1x256 : S256.ShapeCasts S1x256
  shapeCasts_S200000_S200000x1 : S200000.ShapeCasts S200000x1
  inb_S5000x256_S5000x256_0_0 : ∀ a, (![0, 0] : Fin 2 → Nat) a + S5000x256.size a ≤ S5000x256.size a
  h_S5000x256 : 0 < S5000x256.numel
  shapeCasts_S5000x256_S5000x256 : S5000x256.ShapeCasts S5000x256
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x256 : S5000x1.Broadcasts S5000x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S5000x256 : S1x256.Broadcasts S5000x256
  slices_S2x3x256x256_S1x1x256x256_1_0_0_0 : S2x3x256x256.Slices ![1, 0, 0, 0] S1x1x256x256
  slices_S2x3x256_S1x1x256_1_0_0 : S2x3x256.Slices ![1, 0, 0] S1x1x256
  transposes_S128x256_S256x128_1_0 : S128x256.Transposes [1, 0] S256x128
  shapeCasts_S128_S1x128 : S128.ShapeCasts S1x128
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S5000x128_S5000x128_0_0 : ∀ a, (![0, 0] : Fin 2 → Nat) a + S5000x128.size a ≤ S5000x128.size a
  h_S5000x128 : 0 < S5000x128.numel
  gather_S200000x256_S400000x1_S400000x256_1_0_n_n_0_1_1256_wf : GatherDims.WF S200000x256 S400000x1 S400000x256 [1] [0] [] [0] [] 1 ![1, 256]
  scatter_S200000x256_S400000x1_S400000x256_1_0_0_1_wf : ScatterDims.WF S200000x256 S400000x1 S400000x256 [1] [0] [0] 1
  scatter_S200000_S400000x1_S400000_n_0_0_1_wf : ScatterDims.WF S200000 S400000x1 S400000 [] [0] [0] 1
  dot_S5000x256_S256x256_S5000x256_1_0_0_1_n_n_wf : DotDims.WF S5000x256 S256x256 S5000x256 [1] [0] [0] [1] [] []
  dot_S5000x256_S256x128_S5000x128_1_0_0_1_n_n_wf : DotDims.WF S5000x256 S256x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S200000x256.size a
  hwx0_0 : ∀ i : grid0.Coords, EltTy.bits .f32 = 32 ∨ (Rect.block (s := S200000x256) S5000x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x1.size a ≤ S200000x1.size a
  hwx0_1 : ∀ i : grid0.Coords, EltTy.bits .f32 = 32 ∨ (Rect.block (s := S200000x1) S5000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x256.size a ≤ S200000x256.size a
  hwx0_2 : ∀ i : grid0.Coords, EltTy.bits .f32 = 32 ∨ (Rect.block (s := S200000x256) S5000x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S256x256.size a
  hwx0_3 : ∀ i : grid0.Coords, EltTy.bits .f32 = 32 ∨ (Rect.block (s := S256x256) S256x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x256.size a ≤ S256x256.size a
  hwx0_4 : ∀ i : grid0.Coords, EltTy.bits .f32 = 32 ∨ (Rect.block (s := S256x256) S256x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x256.size a ≤ S1x256.size a
  hwx0_5 : ∀ i : grid0.Coords, EltTy.bits .f32 = 32 ∨ (Rect.block (s := S1x256) S1x256.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x256.size a ≤ S200000x256.size a
  hwx0_6 : ∀ i : grid0.Coords, EltTy.bits .f32 = 32 ∨ (Rect.block (s := S200000x256) S5000x256.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x256.size a ≤ S200000x256.size a
  hwx1_0 : ∀ i : grid1.Coords, EltTy.bits .f32 = 32 ∨ (Rect.block (s := S200000x256) S5000x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S200000x1.size a
  hwx1_1 : ∀ i : grid1.Coords, EltTy.bits .f32 = 32 ∨ (Rect.block (s := S200000x1) S5000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x256.size a ≤ S200000x256.size a
  hwx1_2 : ∀ i : grid1.Coords, EltTy.bits .f32 = 32 ∨ (Rect.block (s := S200000x256) S5000x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x256.size a ≤ S256x256.size a
  hwx1_3 : ∀ i : grid1.Coords, EltTy.bits .f32 = 32 ∨ (Rect.block (s := S256x256) S256x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S256x256.size a ≤ S256x256.size a
  hwx1_4 : ∀ i : grid1.Coords, EltTy.bits .f32 = 32 ∨ (Rect.block (s := S256x256) S256x256.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x256.size a ≤ S1x256.size a
  hwx1_5 : ∀ i : grid1.Coords, EltTy.bits .f32 = 32 ∨ (Rect.block (s := S1x256) S1x256.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x256.size a ≤ S200000x256.size a
  hwx1_6 : ∀ i : grid1.Coords, EltTy.bits .f32 = 32 ∨ (Rect.block (s := S200000x256) S5000x256.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x256.size a ≤ S200000x256.size a
  hwx2_0 : ∀ i : grid2.Coords, EltTy.bits .f32 = 32 ∨ (Rect.block (s := S200000x256) S5000x256.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S256x128.size a ≤ S256x128.size a
  hwx2_1 : ∀ i : grid2.Coords, EltTy.bits .f32 = 32 ∨ (Rect.block (s := S256x128) S256x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x128.size a ≤ S200000x128.size a
  hwx2_3 : ∀ i : grid2.Coords, EltTy.bits .f32 = 32 ∨ (Rect.block (s := S200000x128) S5000x128.size (cc2_transform_3 i) (hinb2_3 i)).WholeWords (EltTy.packing .f32)

variable [Facts₀]

def gather_S200000x256_S400000x1_S400000x256_1_0_n_n_0_1_1256 : GatherDims S200000x256 S400000x1 S400000x256 where
  offsetDims := [1]
  collapsedSliceDims := [0]
  operandBatchingDims := []
  startIndicesBatchingDims := []
  startIndexMap := [0]
  indexVectorDim := 1
  sliceSizes := ![1, 256]
  wf := gather_S200000x256_S400000x1_S400000x256_1_0_n_n_0_1_1256_wf
def scatter_S200000x256_S400000x1_S400000x256_1_0_0_1 : ScatterDims S200000x256 S400000x1 S400000x256 where
  updateWindowDims := [1]
  insertedWindowDims := [0]
  scatterDimsToOperandDims := [0]
  indexVectorDim := 1
  wf := scatter_S200000x256_S400000x1_S400000x256_1_0_0_1_wf
def scatter_S200000_S400000x1_S400000_n_0_0_1 : ScatterDims S200000 S400000x1 S400000 where
  updateWindowDims := []
  insertedWindowDims := [0]
  scatterDimsToOperandDims := [0]
  indexVectorDim := 1
  wf := scatter_S200000_S400000x1_S400000_n_0_0_1_wf
def dot_S5000x256_S256x256_S5000x256_1_0_0_1_n_n : DotDims S5000x256 S256x256 S5000x256 where
  lhsContracting := [1]
  rhsContracting := [0]
  lhsNonContracting := [0]
  rhsNonContracting := [1]
  lhsBatch := []
  rhsBatch := []
  wf := dot_S5000x256_S256x256_S5000x256_1_0_0_1_n_n_wf
def dot_S5000x256_S256x128_S5000x128_1_0_0_1_n_n : DotDims S5000x256 S256x128 S5000x128 where
  lhsContracting := [1]
  rhsContracting := [0]
  lhsNonContracting := [0]
  rhsNonContracting := [1]
  lhsBatch := []
  rhsBatch := []
  wf := dot_S5000x256_S256x128_S5000x128_1_0_0_1_n_n_wf

abbrev win0_0 : Pipeline.Window sig grid0 :=
  Pipeline.Window.ofSpec (Memref.whole main_v9) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v23) S5000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S5000x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v20) S256x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v21) S256x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v22) S1x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v24) S5000x256.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v34) S5000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v24) S5000x256.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v41) S256x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v42) S256x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v43) S1x256.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v45) S5000x256.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v45) S5000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v46) S256x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v47) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v48) S5000x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S200000x256 : Shape := ⟨2, ![200000, 256]⟩
abbrev S10000x256 : Shape := ⟨2, ![10000, 256]⟩
abbrev S50x256 : Shape := ⟨2, ![50, 256]⟩
abbrev S2x3x256x256 : Shape := ⟨4, ![2, 3, 256, 256]⟩
abbrev S2x3x256 : Shape := ⟨3, ![2, 3, 256]⟩
abbrev S128x256 : Shape := ⟨2, ![128, 256]⟩
abbrev S128 : Shape := ⟨1, ![128]⟩
abbrev S400000 : Shape := ⟨1, ![400000]⟩
abbrev S1x1x256x256 : Shape := ⟨4, ![1, 1, 256, 256]⟩
abbrev S256x256 : Shape := ⟨2, ![256, 256]⟩
abbrev S1x1x256 : Shape := ⟨3, ![1, 1, 256]⟩
abbrev S256 : Shape := ⟨1, ![256]⟩
abbrev S_ : Shape := ⟨0, ![]⟩
abbrev S400000x1 : Shape := ⟨2, ![400000, 1]⟩
abbrev S400000x256 : Shape := ⟨2, ![400000, 256]⟩
abbrev S200000 : Shape := ⟨1, ![200000]⟩
abbrev S200000x1 : Shape := ⟨2, ![200000, 1]⟩
abbrev S1x256 : Shape := ⟨2, ![1, 256]⟩
abbrev S10000 : Shape := ⟨1, ![10000]⟩
abbrev S10000x1 : Shape := ⟨2, ![10000, 1]⟩
abbrev S50 : Shape := ⟨1, ![50]⟩
abbrev S50x1 : Shape := ⟨2, ![50, 1]⟩
abbrev S256x128 : Shape := ⟨2, ![256, 128]⟩
abbrev S200000x128 : Shape := ⟨2, ![200000, 128]⟩
abbrev S1x128 : Shape := ⟨2, ![1, 128]⟩

abbrev nBuf : Space → Nat
  | .hbm => 271
  | .vmem => 0
  | .smem => 0
  | _ => 0

abbrev hbmTy0_0 (i : Nat) : BufTy := match i % 128 with
  | 0 => ⟨S200000x256, .f32⟩
  | 1 => ⟨S10000x256, .f32⟩
  | 2 => ⟨S50x256, .f32⟩
  | 3 => ⟨S2x3x256x256, .f32⟩
  | 4 => ⟨S2x3x256, .f32⟩
  | 5 => ⟨S2x3x256x256, .f32⟩
  | 6 => ⟨S128x256, .f32⟩
  | 7 => ⟨S128, .f32⟩
  | 8 => ⟨S400000, .i32⟩
  | 9 => ⟨S400000, .i32⟩
  | 10 => ⟨S400000, .i32⟩
  | 11 => ⟨S400000, .i32⟩
  | 12 => ⟨S400000, .i32⟩
  | 13 => ⟨S400000, .i32⟩
  | 14 => ⟨S1x1x256x256, .f32⟩
  | 15 => ⟨S256x256, .f32⟩
  | 16 => ⟨S1x1x256, .f32⟩
  | 17 => ⟨S256, .f32⟩
  | 18 => ⟨S1x1x256x256, .f32⟩
  | 19 => ⟨S256x256, .f32⟩
  | 20 => ⟨S_, .i32⟩
  | 21 => ⟨S400000, .i32⟩
  | 22 => ⟨S400000, .i1⟩
  | 23 => ⟨S_, .i32⟩
  | 24 => ⟨S400000, .i32⟩
  | 25 => ⟨S400000, .i32⟩
  | 26 => ⟨S400000, .i32⟩
  | 27 => ⟨S400000x1, .i32⟩
  | 28 => ⟨S400000x256, .f32⟩
  | 29 => ⟨S_, .f32⟩
  | 30 => ⟨S200000x256, .f32⟩
  | 31 => ⟨S400000x1, .i32⟩
  | 32 => ⟨S200000x256, .f32⟩
  | 33 => ⟨S_, .f32⟩
  | 34 => ⟨S400000, .f32⟩
  | 35 => ⟨S_, .f32⟩
  | 36 => ⟨S200000, .f32⟩
  | 37 => ⟨S400000x1, .i32⟩
  | 38 => ⟨S200000, .f32⟩
  | 39 => ⟨S_, .f32⟩
  | 40 => ⟨S200000, .f32⟩
  | 41 => ⟨S200000, .f32⟩
  | 42 => ⟨S200000x1, .f32⟩
  | 43 => ⟨S200000x256, .f32⟩
  | 44 => ⟨S200000x256, .f32⟩
  | 45 => ⟨S256x256, .f32⟩
  | 46 => ⟨S200000x256, .f32⟩
  | 47 => ⟨S1x256, .f32⟩
  | 48 => ⟨S200000x256, .f32⟩
  | 49 => ⟨S200000x256, .f32⟩
  | 50 => ⟨S256x256, .f32⟩
  | 51 => ⟨S200000x256, .f32⟩
  | 52 => ⟨S200000x256, .f32⟩
  | 53 => ⟨S_, .f32⟩
  | 54 => ⟨S200000x256, .f32⟩
  | 55 => ⟨S200000x256, .f32⟩
  | 56 => ⟨S1x1x256x256, .f32⟩
  | 57 => ⟨S256x256, .f32⟩
  | 58 => ⟨S1x1x256, .f32⟩
  | 59 => ⟨S256, .f32⟩
  | 60 => ⟨S1x1x256x256, .f32⟩
  | 61 => ⟨S256x256, .f32⟩
  | 62 => ⟨S_, .i32⟩
  | 63 => ⟨S400000, .i32⟩
  | 64 => ⟨S400000, .i1⟩
  | 65 => ⟨S_, .i32⟩
  | 66 => ⟨S400000, .i32⟩
  | 67 => ⟨S400000, .i32⟩
  | 68 => ⟨S400000, .i32⟩
  | 69 => ⟨S400000x1, .i32⟩
  | 70 => ⟨S400000x256, .f32⟩
  | 71 => ⟨S_, .f32⟩
  | 72 => ⟨S10000x256, .f32⟩
  | 73 => ⟨S400000x1, .i32⟩
  | 74 => ⟨S10000x256, .f32⟩
  | 75 => ⟨S_, .f32⟩
  | 76 => ⟨S400000, .f32⟩
  | 77 => ⟨S_, .f32⟩
  | 78 => ⟨S10000, .f32⟩
  | 79 => ⟨S400000x1, .i32⟩
  | 80 => ⟨S10000, .f32⟩
  | 81 => ⟨S_, .f32⟩
  | 82 => ⟨S10000, .f32⟩
  | 83 => ⟨S10000, .f32⟩
  | 84 => ⟨S10000x1, .f32⟩
  | 85 => ⟨S10000x256, .f32⟩
  | 86 => ⟨S10000x256, .f32⟩
  | 87 => ⟨S256x256, .f32⟩
  | 88 => ⟨S10000x256, .f32⟩
  | 89 => ⟨S1x256, .f32⟩
  | 90 => ⟨S10000x256, .f32⟩
  | 91 => ⟨S10000x256, .f32⟩
  | 92 => ⟨S256x256, .f32⟩
  | 93 => ⟨S10000x256, .f32⟩
  | 94 => ⟨S10000x256, .f32⟩
  | 95 => ⟨S_, .f32⟩
  | 96 => ⟨S10000x256, .f32⟩
  | 97 => ⟨S10000x256, .f32⟩
  | 98 => ⟨S1x1x256x256, .f32⟩
  | 99 => ⟨S256x256, .f32⟩
  | 100 => ⟨S1x1x256, .f32⟩
  | 101 => ⟨S256, .f32⟩
  | 102 => ⟨S1x1x256x256, .f32⟩
  | 103 => ⟨S256x256, .f32⟩
  | 104 => ⟨S_, .i32⟩
  | 105 => ⟨S400000, .i32⟩
  | 106 => ⟨S400000, .i1⟩
  | 107 => ⟨S_, .i32⟩
  | 108 => ⟨S400000, .i32⟩
  | 109 => ⟨S400000, .i32⟩
  | 110 => ⟨S400000, .i32⟩
  | 111 => ⟨S400000x1, .i32⟩
  | 112 => ⟨S400000x256, .f32⟩
  | 113 => ⟨S_, .f32⟩
  | 114 => ⟨S50x256, .f32⟩
  | 115 => ⟨S400000x1, .i32⟩
  | 116 => ⟨S50x256, .f32⟩
  | 117 => ⟨S_, .f32⟩
  | 118 => ⟨S400000, .f32⟩
  | 119 => ⟨S_, .f32⟩
  | 120 => ⟨S50, .f32⟩
  | 121 => ⟨S400000x1, .i32⟩
  | 122 => ⟨S50, .f32⟩
  | 123 => ⟨S_, .f32⟩
  | 124 => ⟨S50, .f32⟩
  | 125 => ⟨S50, .f32⟩
  | 126 => ⟨S50x1, .f32⟩
  | 127 => ⟨S50x256, .f32⟩
  | _ => ⟨S200000x256, .f32⟩

abbrev hbmTy0_1 (i : Nat) : BufTy := match i % 128 with
  | 0 => ⟨S50x256, .f32⟩
  | 1 => ⟨S256x256, .f32⟩
  | 2 => ⟨S50x256, .f32⟩
  | 3 => ⟨S1x256, .f32⟩
  | 4 => ⟨S50x256, .f32⟩
  | 5 => ⟨S50x256, .f32⟩
  | 6 => ⟨S256x256, .f32⟩
  | 7 => ⟨S50x256, .f32⟩
  | 8 => ⟨S50x256, .f32⟩
  | 9 => ⟨S_, .f32⟩
  | 10 => ⟨S50x256, .f32⟩
  | 11 => ⟨S50x256, .f32⟩
  | 12 => ⟨S1x1x256x256, .f32⟩
  | 13 => ⟨S256x256, .f32⟩
  | 14 => ⟨S1x1x256, .f32⟩
  | 15 => ⟨S256, .f32⟩
  | 16 => ⟨S1x1x256x256, .f32⟩
  | 17 => ⟨S256x256, .f32⟩
  | 18 => ⟨S_, .i32⟩
  | 19 => ⟨S400000, .i32⟩
  | 20 => ⟨S400000, .i1⟩
  | 21 => ⟨S_, .i32⟩
  | 22 => ⟨S400000, .i32⟩
  | 23 => ⟨S400000, .i32⟩
  | 24 => ⟨S400000, .i32⟩
  | 25 => ⟨S400000x1, .i32⟩
  | 26 => ⟨S400000x256, .f32⟩
  | 27 => ⟨S_, .f32⟩
  | 28 => ⟨S200000x256, .f32⟩
  | 29 => ⟨S400000x1, .i32⟩
  | 30 => ⟨S200000x256, .f32⟩
  | 31 => ⟨S_, .f32⟩
  | 32 => ⟨S400000, .f32⟩
  | 33 => ⟨S_, .f32⟩
  | 34 => ⟨S200000, .f32⟩
  | 35 => ⟨S400000x1, .i32⟩
  | 36 => ⟨S200000, .f32⟩
  | 37 => ⟨S_, .f32⟩
  | 38 => ⟨S200000, .f32⟩
  | 39 => ⟨S200000, .f32⟩
  | 40 => ⟨S200000x1, .f32⟩
  | 41 => ⟨S200000x256, .f32⟩
  | 42 => ⟨S200000x256, .f32⟩
  | 43 => ⟨S256x256, .f32⟩
  | 44 => ⟨S200000x256, .f32⟩
  | 45 => ⟨S1x256, .f32⟩
  | 46 => ⟨S200000x256, .f32⟩
  | 47 => ⟨S200000x256, .f32⟩
  | 48 => ⟨S256x256, .f32⟩
  | 49 => ⟨S200000x256, .f32⟩
  | 50 => ⟨S200000x256, .f32⟩
  | 51 => ⟨S_, .f32⟩
  | 52 => ⟨S200000x256, .f32⟩
  | 53 => ⟨S200000x256, .f32⟩
  | 54 => ⟨S1x1x256x256, .f32⟩
  | 55 => ⟨S256x256, .f32⟩
  | 56 => ⟨S1x1x256, .f32⟩
  | 57 => ⟨S256, .f32⟩
  | 58 => ⟨S1x1x256x256, .f32⟩
  | 59 => ⟨S256x256, .f32⟩
  | 60 => ⟨S_, .i32⟩
  | 61 => ⟨S400000, .i32⟩
  | 62 => ⟨S400000, .i1⟩
  | 63 => ⟨S_, .i32⟩
  | 64 => ⟨S400000, .i32⟩
  | 65 => ⟨S400000, .i32⟩
  | 66 => ⟨S400000, .i32⟩
  | 67 => ⟨S400000x1, .i32⟩
  | 68 => ⟨S400000x256, .f32⟩
  | 69 => ⟨S_, .f32⟩
  | 70 => ⟨S10000x256, .f32⟩
  | 71 => ⟨S400000x1, .i32⟩
  | 72 => ⟨S10000x256, .f32⟩
  | 73 => ⟨S_, .f32⟩
  | 74 => ⟨S400000, .f32⟩
  | 75 => ⟨S_, .f32⟩
  | 76 => ⟨S10000, .f32⟩
  | 77 => ⟨S400000x1, .i32⟩
  | 78 => ⟨S10000, .f32⟩
  | 79 => ⟨S_, .f32⟩
  | 80 => ⟨S10000, .f32⟩
  | 81 => ⟨S10000, .f32⟩
  | 82 => ⟨S10000x1, .f32⟩
  | 83 => ⟨S10000x256, .f32⟩
  | 84 => ⟨S10000x256, .f32⟩
  | 85 => ⟨S256x256, .f32⟩
  | 86 => ⟨S10000x256, .f32⟩
  | 87 => ⟨S1x256, .f32⟩
  | 88 => ⟨S10000x256, .f32⟩
  | 89 => ⟨S10000x256, .f32⟩
  | 90 => ⟨S256x256, .f32⟩
  | 91 => ⟨S10000x256, .f32⟩
  | 92 => ⟨S10000x256, .f32⟩
  | 93 => ⟨S_, .f32⟩
  | 94 => ⟨S10000x256, .f32⟩
  | 95 => ⟨S10000x256, .f32⟩
  | 96 => ⟨S1x1x256x256, .f32⟩
  | 97 => ⟨S256x256, .f32⟩
  | 98 => ⟨S1x1x256, .f32⟩
  | 99 => ⟨S256, .f32⟩
  | 100 => ⟨S1x1x256x256, .f32⟩
  | 101 => ⟨S256x256, .f32⟩
  | 102 => ⟨S_, .i32⟩
  | 103 => ⟨S400000, .i32⟩
  | 104 => ⟨S400000, .i1⟩
  | 105 => ⟨S_, .i32⟩
  | 106 => ⟨S400000, .i32⟩
  | 107 => ⟨S400000, .i32⟩
  | 108 => ⟨S400000, .i32⟩
  | 109 => ⟨S400000x1, .i32⟩
  | 110 => ⟨S400000x256, .f32⟩
  | 111 => ⟨S_, .f32⟩
  | 112 => ⟨S50x256, .f32⟩
  | 113 => ⟨S400000x1, .i32⟩
  | 114 => ⟨S50x256, .f32⟩
  | 115 => ⟨S_, .f32⟩
  | 116 => ⟨S400000, .f32⟩
  | 117 => ⟨S_, .f32⟩
  | 118 => ⟨S50, .f32⟩
  | 119 => ⟨S400000x1, .i32⟩
  | 120 => ⟨S50, .f32⟩
  | 121 => ⟨S_, .f32⟩
  | 122 => ⟨S50, .f32⟩
  | 123 => ⟨S50, .f32⟩
  | 124 => ⟨S50x1, .f32⟩
  | 125 => ⟨S50x256, .f32⟩
  | 126 => ⟨S50x256, .f32⟩
  | 127 => ⟨S256x256, .f32⟩
  | _ => ⟨S200000x256, .f32⟩

abbrev hbmTy0_2 (i : Nat) : BufTy := match i % 128 with
  | 0 => ⟨S50x256, .f32⟩
  | 1 => ⟨S1x256, .f32⟩
  | 2 => ⟨S50x256, .f32⟩
  | 3 => ⟨S50x256, .f32⟩
  | 4 => ⟨S256x256, .f32⟩
  | 5 => ⟨S50x256, .f32⟩
  | 6 => ⟨S50x256, .f32⟩
  | 7 => ⟨S_, .f32⟩
  | 8 => ⟨S50x256, .f32⟩
  | 9 => ⟨S50x256, .f32⟩
  | 10 => ⟨S256x128, .f32⟩
  | 11 => ⟨S200000x128, .f32⟩
  | 12 => ⟨S1x128, .f32⟩
  | 13 => ⟨S200000x128, .f32⟩
  | 14 => ⟨S200000x128, .f32⟩
  | _ => ⟨S200000x256, .f32⟩

abbrev hbmTy (i : Nat) : BufTy := match i / 128 with
  | 0 => hbmTy0_0 i
  | 1 => hbmTy0_1 i
  | 2 => hbmTy0_2 i
  | _ => ⟨S200000x256, .f32⟩

abbrev bufTy : (tb : Table) → Fin (tcTables nBuf tb) → BufTy
  | .hbm, ⟨i, _⟩ => hbmTy i
  | _, _ => ⟨S200000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_c : Ref sig .tc := ⟨.hbm, 20, rfl⟩
abbrev main_v6 : Ref sig .tc := ⟨.hbm, 21, rfl⟩
abbrev main_v7 : Ref sig .tc := ⟨.hbm, 22, rfl⟩
abbrev main_c_0 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_cst : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_cst_1 : Ref sig .tc := ⟨.hbm, 33, rfl⟩
abbrev main_v16 : Ref sig .tc := ⟨.hbm, 34, rfl⟩
abbrev main_cst_2 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_cst_3 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_call0_cst : Ref sig .tc := ⟨.hbm, 53, rfl⟩
abbrev main_call0_v0 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_c_4 : Ref sig .tc := ⟨.hbm, 62, rfl⟩
abbrev main_v40 : Ref sig .tc := ⟨.hbm, 63, rfl⟩
abbrev main_v41 : Ref sig .tc := ⟨.hbm, 64, rfl⟩
abbrev main_c_5 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_cst_6 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_cst_7 : Ref sig .tc := ⟨.hbm, 75, rfl⟩
abbrev main_v50 : Ref sig .tc := ⟨.hbm, 76, rfl⟩
abbrev main_cst_8 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_cst_9 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_call1_cst : Ref sig .tc := ⟨.hbm, 95, rfl⟩
abbrev main_call1_v0 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_c_10 : Ref sig .tc := ⟨.hbm, 104, rfl⟩
abbrev main_v74 : Ref sig .tc := ⟨.hbm, 105, rfl⟩
abbrev main_v75 : Ref sig .tc := ⟨.hbm, 106, rfl⟩
abbrev main_c_11 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_cst_12 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_cst_13 : Ref sig .tc := ⟨.hbm, 117, rfl⟩
abbrev main_v84 : Ref sig .tc := ⟨.hbm, 118, rfl⟩
abbrev main_cst_14 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_cst_15 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩
abbrev main_v97 : Ref sig .tc := ⟨.hbm, 133, rfl⟩
abbrev main_v98 : Ref sig .tc := ⟨.hbm, 134, rfl⟩
abbrev main_v99 : Ref sig .tc := ⟨.hbm, 135, rfl⟩
abbrev main_v100 : Ref sig .tc := ⟨.hbm, 136, rfl⟩
abbrev main_call2_cst : Ref sig .tc := ⟨.hbm, 137, rfl⟩
abbrev main_call2_v0 : Ref sig .tc := ⟨.hbm, 138, rfl⟩
abbrev main_v101 : Ref sig .tc := ⟨.hbm, 139, rfl⟩
abbrev main_v102 : Ref sig .tc := ⟨.hbm, 140, rfl⟩
abbrev main_v103 : Ref sig .tc := ⟨.hbm, 141, rfl⟩
abbrev main_v104 : Ref sig .tc := ⟨.hbm, 142, rfl⟩
abbrev main_v105 : Ref sig .tc := ⟨.hbm, 143, rfl⟩
abbrev main_v106 : Ref sig .tc := ⟨.hbm, 144, rfl⟩
abbrev main_v107 : Ref sig .tc := ⟨.hbm, 145, rfl⟩
abbrev main_c_16 : Ref sig .tc := ⟨.hbm, 146, rfl⟩
abbrev main_v108 : Ref sig .tc := ⟨.hbm, 147, rfl⟩
abbrev main_v109 : Ref sig .tc := ⟨.hbm, 148, rfl⟩
abbrev main_c_17 : Ref sig .tc := ⟨.hbm, 149, rfl⟩
abbrev main_v110 : Ref sig .tc := ⟨.hbm, 150, rfl⟩
abbrev main_v111 : Ref sig .tc := ⟨.hbm, 151, rfl⟩
abbrev main_v112 : Ref sig .tc := ⟨.hbm, 152, rfl⟩
abbrev main_v113 : Ref sig .tc := ⟨.hbm, 153, rfl⟩
abbrev main_v114 : Ref sig .tc := ⟨.hbm, 154, rfl⟩
abbrev main_cst_18 : Ref sig .tc := ⟨.hbm, 155, rfl⟩
abbrev main_v115 : Ref sig .tc := ⟨.hbm, 156, rfl⟩
abbrev main_v116 : Ref sig .tc := ⟨.hbm, 157, rfl⟩
abbrev main_v117 : Ref sig .tc := ⟨.hbm, 158, rfl⟩
abbrev main_cst_19 : Ref sig .tc := ⟨.hbm, 159, rfl⟩
abbrev main_v118 : Ref sig .tc := ⟨.hbm, 160, rfl⟩
abbrev main_cst_20 : Ref sig .tc := ⟨.hbm, 161, rfl⟩
abbrev main_v119 : Ref sig .tc := ⟨.hbm, 162, rfl⟩
abbrev main_v120 : Ref sig .tc := ⟨.hbm, 163, rfl⟩
abbrev main_v121 : Ref sig .tc := ⟨.hbm, 164, rfl⟩
abbrev main_cst_21 : Ref sig .tc := ⟨.hbm, 165, rfl⟩
abbrev main_v122 : Ref sig .tc := ⟨.hbm, 166, rfl⟩
abbrev main_v123 : Ref sig .tc := ⟨.hbm, 167, rfl⟩
abbrev main_v124 : Ref sig .tc := ⟨.hbm, 168, rfl⟩
abbrev main_v125 : Ref sig .tc := ⟨.hbm, 169, rfl⟩
abbrev main_v126 : Ref sig .tc := ⟨.hbm, 170, rfl⟩
abbrev main_v127 : Ref sig .tc := ⟨.hbm, 171, rfl⟩
abbrev main_v128 : Ref sig .tc := ⟨.hbm, 172, rfl⟩
abbrev main_v129 : Ref sig .tc := ⟨.hbm, 173, rfl⟩
abbrev main_v130 : Ref sig .tc := ⟨.hbm, 174, rfl⟩
abbrev main_v131 : Ref sig .tc := ⟨.hbm, 175, rfl⟩
abbrev main_v132 : Ref sig .tc := ⟨.hbm, 176, rfl⟩
abbrev main_v133 : Ref sig .tc := ⟨.hbm, 177, rfl⟩
abbrev main_v134 : Ref sig .tc := ⟨.hbm, 178, rfl⟩
abbrev main_call3_cst : Ref sig .tc := ⟨.hbm, 179, rfl⟩
abbrev main_call3_v0 : Ref sig .tc := ⟨.hbm, 180, rfl⟩
abbrev main_v135 : Ref sig .tc := ⟨.hbm, 181, rfl⟩
abbrev main_v136 : Ref sig .tc := ⟨.hbm, 182, rfl⟩
abbrev main_v137 : Ref sig .tc := ⟨.hbm, 183, rfl⟩
abbrev main_v138 : Ref sig .tc := ⟨.hbm, 184, rfl⟩
abbrev main_v139 : Ref sig .tc := ⟨.hbm, 185, rfl⟩
abbrev main_v140 : Ref sig .tc := ⟨.hbm, 186, rfl⟩
abbrev main_v141 : Ref sig .tc := ⟨.hbm, 187, rfl⟩
abbrev main_c_22 : Ref sig .tc := ⟨.hbm, 188, rfl⟩
abbrev main_v142 : Ref sig .tc := ⟨.hbm, 189, rfl⟩
abbrev main_v143 : Ref sig .tc := ⟨.hbm, 190, rfl⟩
abbrev main_c_23 : Ref sig .tc := ⟨.hbm, 191, rfl⟩
abbrev main_v144 : Ref sig .tc := ⟨.hbm, 192, rfl⟩
abbrev main_v145 : Ref sig .tc := ⟨.hbm, 193, rfl⟩
abbrev main_v146 : Ref sig .tc := ⟨.hbm, 194, rfl⟩
abbrev main_v147 : Ref sig .tc := ⟨.hbm, 195, rfl⟩
abbrev main_v148 : Ref sig .tc := ⟨.hbm, 196, rfl⟩
abbrev main_cst_24 : Ref sig .tc := ⟨.hbm, 197, rfl⟩
abbrev main_v149 : Ref sig .tc := ⟨.hbm, 198, rfl⟩
abbrev main_v150 : Ref sig .tc := ⟨.hbm, 199, rfl⟩
abbrev main_v151 : Ref sig .tc := ⟨.hbm, 200, rfl⟩
abbrev main_cst_25 : Ref sig .tc := ⟨.hbm, 201, rfl⟩
abbrev main_v152 : Ref sig .tc := ⟨.hbm, 202, rfl⟩
abbrev main_cst_26 : Ref sig .tc := ⟨.hbm, 203, rfl⟩
abbrev main_v153 : Ref sig .tc := ⟨.hbm, 204, rfl⟩
abbrev main_v154 : Ref sig .tc := ⟨.hbm, 205, rfl⟩
abbrev main_v155 : Ref sig .tc := ⟨.hbm, 206, rfl⟩
abbrev main_cst_27 : Ref sig .tc := ⟨.hbm, 207, rfl⟩
abbrev main_v156 : Ref sig .tc := ⟨.hbm, 208, rfl⟩
abbrev main_v157 : Ref sig .tc := ⟨.hbm, 209, rfl⟩
abbrev main_v158 : Ref sig .tc := ⟨.hbm, 210, rfl⟩
abbrev main_v159 : Ref sig .tc := ⟨.hbm, 211, rfl⟩
abbrev main_v160 : Ref sig .tc := ⟨.hbm, 212, rfl⟩
abbrev main_v161 : Ref sig .tc := ⟨.hbm, 213, rfl⟩
abbrev main_v162 : Ref sig .tc := ⟨.hbm, 214, rfl⟩
abbrev main_v163 : Ref sig .tc := ⟨.hbm, 215, rfl⟩
abbrev main_v164 : Ref sig .tc := ⟨.hbm, 216, rfl⟩
abbrev main_v165 : Ref sig .tc := ⟨.hbm, 217, rfl⟩
abbrev main_v166 : Ref sig .tc := ⟨.hbm, 218, rfl⟩
abbrev main_v167 : Ref sig .tc := ⟨.hbm, 219, rfl⟩
abbrev main_v168 : Ref sig .tc := ⟨.hbm, 220, rfl⟩
abbrev main_call4_cst : Ref sig .tc := ⟨.hbm, 221, rfl⟩
abbrev main_call4_v0 : Ref sig .tc := ⟨.hbm, 222, rfl⟩
abbrev main_v169 : Ref sig .tc := ⟨.hbm, 223, rfl⟩
abbrev main_v170 : Ref sig .tc := ⟨.hbm, 224, rfl⟩
abbrev main_v171 : Ref sig .tc := ⟨.hbm, 225, rfl⟩
abbrev main_v172 : Ref sig .tc := ⟨.hbm, 226, rfl⟩
abbrev main_v173 : Ref sig .tc := ⟨.hbm, 227, rfl⟩
abbrev main_v174 : Ref sig .tc := ⟨.hbm, 228, rfl⟩
abbrev main_v175 : Ref sig .tc := ⟨.hbm, 229, rfl⟩
abbrev main_c_28 : Ref sig .tc := ⟨.hbm, 230, rfl⟩
abbrev main_v176 : Ref sig .tc := ⟨.hbm, 231, rfl⟩
abbrev main_v177 : Ref sig .tc := ⟨.hbm, 232, rfl⟩
abbrev main_c_29 : Ref sig .tc := ⟨.hbm, 233, rfl⟩
abbrev main_v178 : Ref sig .tc := ⟨.hbm, 234, rfl⟩
abbrev main_v179 : Ref sig .tc := ⟨.hbm, 235, rfl⟩
abbrev main_v180 : Ref sig .tc := ⟨.hbm, 236, rfl⟩
abbrev main_v181 : Ref sig .tc := ⟨.hbm, 237, rfl⟩
abbrev main_v182 : Ref sig .tc := ⟨.hbm, 238, rfl⟩
abbrev main_cst_30 : Ref sig .tc := ⟨.hbm, 239, rfl⟩
abbrev main_v183 : Ref sig .tc := ⟨.hbm, 240, rfl⟩
abbrev main_v184 : Ref sig .tc := ⟨.hbm, 241, rfl⟩
abbrev main_v185 : Ref sig .tc := ⟨.hbm, 242, rfl⟩
abbrev main_cst_31 : Ref sig .tc := ⟨.hbm, 243, rfl⟩
abbrev main_v186 : Ref sig .tc := ⟨.hbm, 244, rfl⟩
abbrev main_cst_32 : Ref sig .tc := ⟨.hbm, 245, rfl⟩
abbrev main_v187 : Ref sig .tc := ⟨.hbm, 246, rfl⟩
abbrev main_v188 : Ref sig .tc := ⟨.hbm, 247, rfl⟩
abbrev main_v189 : Ref sig .tc := ⟨.hbm, 248, rfl⟩
abbrev main_cst_33 : Ref sig .tc := ⟨.hbm, 249, rfl⟩
abbrev main_v190 : Ref sig .tc := ⟨.hbm, 250, rfl⟩
abbrev main_v191 : Ref sig .tc := ⟨.hbm, 251, rfl⟩
abbrev main_v192 : Ref sig .tc := ⟨.hbm, 252, rfl⟩
abbrev main_v193 : Ref sig .tc := ⟨.hbm, 253, rfl⟩
abbrev main_v194 : Ref sig .tc := ⟨.hbm, 254, rfl⟩
abbrev main_v195 : Ref sig .tc := ⟨.hbm, 255, rfl⟩
abbrev main_v196 : Ref sig .tc := ⟨.hbm, 256, rfl⟩
abbrev main_v197 : Ref sig .tc := ⟨.hbm, 257, rfl⟩
abbrev main_v198 : Ref sig .tc := ⟨.hbm, 258, rfl⟩
abbrev main_v199 : Ref sig .tc := ⟨.hbm, 259, rfl⟩
abbrev main_v200 : Ref sig .tc := ⟨.hbm, 260, rfl⟩
abbrev main_v201 : Ref sig .tc := ⟨.hbm, 261, rfl⟩
abbrev main_v202 : Ref sig .tc := ⟨.hbm, 262, rfl⟩
abbrev main_call5_cst : Ref sig .tc := ⟨.hbm, 263, rfl⟩
abbrev main_call5_v0 : Ref sig .tc := ⟨.hbm, 264, rfl⟩
abbrev main_v203 : Ref sig .tc := ⟨.hbm, 265, rfl⟩
abbrev main_v204 : Ref sig .tc := ⟨.hbm, 266, rfl⟩
abbrev main_v205 : Ref sig .tc := ⟨.hbm, 267, rfl⟩
abbrev main_v206 : Ref sig .tc := ⟨.hbm, 268, rfl⟩
abbrev main_v207 : Ref sig .tc := ⟨.hbm, 269, rfl⟩
abbrev main_v208 : Ref sig .tc := ⟨.hbm, 270, rfl⟩

abbrev nD : Nat := 1
abbrev τ : Topo := Topo.v7x

variable {F : FTy → Type} [FloatOps F]

class Facts₀ : Prop where
  slices_S2x3x256x256_S1x1x256x256_0_0_0_0 : S2x3x256x256.Slices ![0, 0, 0, 0] S1x1x256x256
  shapeCasts_S1x1x256x256_S256x256 : S1x1x256x256.ShapeCasts S256x256
  slices_S2x3x256_S1x1x256_0_0_0 : S2x3x256.Slices ![0, 0, 0] S1x1x256
  shapeCasts_S1x1x256_S256 : S1x1x256.ShapeCasts S256
  bcast_S_S400000 : S_.BroadcastsInDim S400000 (![] : Fin 0 → Fin S400000.rank)
  bcast_S400000_S400000x1_0 : S400000.BroadcastsInDim S400000x1 (![0] : Fin 1 → Fin S400000x1.rank)
  bcast_S_S200000x256 : S_.BroadcastsInDim S200000x256 (![] : Fin 0 → Fin S200000x256.rank)
  bcast_S_S200000 : S_.BroadcastsInDim S200000 (![] : Fin 0 → Fin S200000.rank)
  bcast_S200000_S200000x1_0 : S200000.BroadcastsInDim S200000x1 (![0] : Fin 1 → Fin S200000x1.rank)
  bcast_S200000x1_S200000x256_0_1 : S200000x1.BroadcastsInDim S200000x256 (![0, 1] : Fin 2 → Fin S200000x256.rank)
  transposes_S256x256_S256x256_1_0 : S256x256.Transposes [1, 0] S256x256
  bcast_S256_S1x256_1 : S256.BroadcastsInDim S1x256 (![1] : Fin 1 → Fin S1x256.rank)
  bcast_S1x256_S200000x256_0_1 : S1x256.BroadcastsInDim S200000x256 (![0, 1] : Fin 2 → Fin S200000x256.rank)
  slices_S2x3x256x256_S1x1x256x256_0_1_0_0 : S2x3x256x256.Slices ![0, 1, 0, 0] S1x1x256x256
  slices_S2x3x256_S1x1x256_0_1_0 : S2x3x256.Slices ![0, 1, 0] S1x1x256
  bcast_S_S10000x256 : S_.BroadcastsInDim S10000x256 (![] : Fin 0 → Fin S10000x256.rank)
  bcast_S_S10000 : S_.BroadcastsInDim S10000 (![] : Fin 0 → Fin S10000.rank)
  bcast_S10000_S10000x1_0 : S10000.BroadcastsInDim S10000x1 (![0] : Fin 1 → Fin S10000x1.rank)
  bcast_S10000x1_S10000x256_0_1 : S10000x1.BroadcastsInDim S10000x256 (![0, 1] : Fin 2 → Fin S10000x256.rank)
  bcast_S1x256_S10000x256_0_1 : S1x256.BroadcastsInDim S10000x256 (![0, 1] : Fin 2 → Fin S10000x256.rank)
  slices_S2x3x256x256_S1x1x256x256_0_2_0_0 : S2x3x256x256.Slices ![0, 2, 0, 0] S1x1x256x256
  slices_S2x3x256_S1x1x256_0_2_0 : S2x3x256.Slices ![0, 2, 0] S1x1x256
  bcast_S_S50x256 : S_.BroadcastsInDim S50x256 (![] : Fin 0 → Fin S50x256.rank)
  bcast_S_S50 : S_.BroadcastsInDim S50 (![] : Fin 0 → Fin S50.rank)
  bcast_S50_S50x1_0 : S50.BroadcastsInDim S50x1 (![0] : Fin 1 → Fin S50x1.rank)
  bcast_S50x1_S50x256_0_1 : S50x1.BroadcastsInDim S50x256 (![0, 1] : Fin 2 → Fin S50x256.rank)
  bcast_S1x256_S50x256_0_1 : S1x256.BroadcastsInDim S50x256 (![0, 1] : Fin 2 → Fin S50x256.rank)
  slices_S2x3x256x256_S1x1x256x256_1_0_0_0 : S2x3x256x256.Slices ![1, 0, 0, 0] S1x1x256x256
  slices_S2x3x256_S1x1x256_1_0_0 : S2x3x256.Slices ![1, 0, 0] S1x1x256
  slices_S2x3x256x256_S1x1x256x256_1_1_0_0 : S2x3x256x256.Slices ![1, 1, 0, 0] S1x1x256x256
  slices_S2x3x256_S1x1x256_1_1_0 : S2x3x256.Slices ![1, 1, 0] S1x1x256
  slices_S2x3x256x256_S1x1x256x256_1_2_0_0 : S2x3x256x256.Slices ![1, 2, 0, 0] S1x1x256x256
  slices_S2x3x256_S1x1x256_1_2_0 : S2x3x256.Slices ![1, 2, 0] S1x1x256
  transposes_S128x256_S256x128_1_0 : S128x256.Transposes [1, 0] S256x128
  bcast_S128_S1x128_1 : S128.BroadcastsInDim S1x128 (![1] : Fin 1 → Fin S1x128.rank)
  bcast_S1x128_S200000x128_0_1 : S1x128.BroadcastsInDim S200000x128 (![0, 1] : Fin 2 → Fin S200000x128.rank)
  gather_S200000x256_S400000x1_S400000x256_1_0_n_n_0_1_1256_wf : GatherDims.WF S200000x256 S400000x1 S400000x256 [1] [0] [] [0] [] 1 ![1, 256]
  scatter_S200000x256_S400000x1_S400000x256_1_0_0_1_wf : ScatterDims.WF S200000x256 S400000x1 S400000x256 [1] [0] [0] 1
  scatter_S200000_S400000x1_S400000_n_0_0_1_wf : ScatterDims.WF S200000 S400000x1 S400000 [] [0] [0] 1
  dot_S200000x256_S256x256_S200000x256_1_0_0_1_n_n_wf : DotDims.WF S200000x256 S256x256 S200000x256 [1] [0] [0] [1] [] []
  scatter_S10000x256_S400000x1_S400000x256_1_0_0_1_wf : ScatterDims.WF S10000x256 S400000x1 S400000x256 [1] [0] [0] 1
  scatter_S10000_S400000x1_S400000_n_0_0_1_wf : ScatterDims.WF S10000 S400000x1 S400000 [] [0] [0] 1
  dot_S10000x256_S256x256_S10000x256_1_0_0_1_n_n_wf : DotDims.WF S10000x256 S256x256 S10000x256 [1] [0] [0] [1] [] []
  scatter_S50x256_S400000x1_S400000x256_1_0_0_1_wf : ScatterDims.WF S50x256 S400000x1 S400000x256 [1] [0] [0] 1
  scatter_S50_S400000x1_S400000_n_0_0_1_wf : ScatterDims.WF S50 S400000x1 S400000 [] [0] [0] 1
  dot_S50x256_S256x256_S50x256_1_0_0_1_n_n_wf : DotDims.WF S50x256 S256x256 S50x256 [1] [0] [0] [1] [] []
  dot_S200000x256_S256x128_S200000x128_1_0_0_1_n_n_wf : DotDims.WF S200000x256 S256x128 S200000x128 [1] [0] [0] [1] [] []

variable [Facts₀]

def gather_S200000x256_S400000x1_S400000x256_1_0_n_n_0_1_1256 : GatherDims S200000x256 S400000x1 S400000x256 where
  offsetDims := [1]
  collapsedSliceDims := [0]
  operandBatchingDims := []
  startIndicesBatchingDims := []
  startIndexMap := [0]
  indexVectorDim := 1
  sliceSizes := ![1, 256]
  wf := gather_S200000x256_S400000x1_S400000x256_1_0_n_n_0_1_1256_wf
def scatter_S200000x256_S400000x1_S400000x256_1_0_0_1 : ScatterDims S200000x256 S400000x1 S400000x256 where
  updateWindowDims := [1]
  insertedWindowDims := [0]
  scatterDimsToOperandDims := [0]
  indexVectorDim := 1
  wf := scatter_S200000x256_S400000x1_S400000x256_1_0_0_1_wf
def scatter_S200000_S400000x1_S400000_n_0_0_1 : ScatterDims S200000 S400000x1 S400000 where
  updateWindowDims := []
  insertedWindowDims := [0]
  scatterDimsToOperandDims := [0]
  indexVectorDim := 1
  wf := scatter_S200000_S400000x1_S400000_n_0_0_1_wf
def dot_S200000x256_S256x256_S200000x256_1_0_0_1_n_n : DotDims S200000x256 S256x256 S200000x256 where
  lhsContracting := [1]
  rhsContracting := [0]
  lhsNonContracting := [0]
  rhsNonContracting := [1]
  lhsBatch := []
  rhsBatch := []
  wf := dot_S200000x256_S256x256_S200000x256_1_0_0_1_n_n_wf
def scatter_S10000x256_S400000x1_S400000x256_1_0_0_1 : ScatterDims S10000x256 S400000x1 S400000x256 where
  updateWindowDims := [1]
  insertedWindowDims := [0]
  scatterDimsToOperandDims := [0]
  indexVectorDim := 1
  wf := scatter_S10000x256_S400000x1_S400000x256_1_0_0_1_wf
def scatter_S10000_S400000x1_S400000_n_0_0_1 : ScatterDims S10000 S400000x1 S400000 where
  updateWindowDims := []
  insertedWindowDims := [0]
  scatterDimsToOperandDims := [0]
  indexVectorDim := 1
  wf := scatter_S10000_S400000x1_S400000_n_0_0_1_wf
def dot_S10000x256_S256x256_S10000x256_1_0_0_1_n_n : DotDims S10000x256 S256x256 S10000x256 where
  lhsContracting := [1]
  rhsContracting := [0]
  lhsNonContracting := [0]
  rhsNonContracting := [1]
  lhsBatch := []
  rhsBatch := []
  wf := dot_S10000x256_S256x256_S10000x256_1_0_0_1_n_n_wf
def scatter_S50x256_S400000x1_S400000x256_1_0_0_1 : ScatterDims S50x256 S400000x1 S400000x256 where
  updateWindowDims := [1]
  insertedWindowDims := [0]
  scatterDimsToOperandDims := [0]
  indexVectorDim := 1
  wf := scatter_S50x256_S400000x1_S400000x256_1_0_0_1_wf
def scatter_S50_S400000x1_S400000_n_0_0_1 : ScatterDims S50 S400000x1 S400000 where
  updateWindowDims := []
  insertedWindowDims := [0]
  scatterDimsToOperandDims := [0]
  indexVectorDim := 1
  wf := scatter_S50_S400000x1_S400000_n_0_0_1_wf
def dot_S50x256_S256x256_S50x256_1_0_0_1_n_n : DotDims S50x256 S256x256 S50x256 where
  lhsContracting := [1]
  rhsContracting := [0]
  lhsNonContracting := [0]
  rhsNonContracting := [1]
  lhsBatch := []
  rhsBatch := []
  wf := dot_S50x256_S256x256_S50x256_1_0_0_1_n_n_wf
def dot_S200000x256_S256x128_S200000x128_1_0_0_1_n_n : DotDims S200000x256 S256x128 S200000x128 where
  lhsContracting := [1]
  rhsContracting := [0]
  lhsNonContracting := [0]
  rhsNonContracting := [1]
  lhsBatch := []
  rhsBatch := []
  wf := dot_S200000x256_S256x128_S200000x128_1_0_0_1_n_n_wf

class Facts : Prop extends Facts₀ where

variable [Facts]
-- ==== Proof.LibLayout.lean ====
/-
  General reading lemmas for layout operations between a vector and a matrix with a unit axis, over any extents:
  a column broadcast over the columns, a vector made a column or a row, a column or a row broadcast to a matrix
  on the host, and the host's rows-by-columns product as a sum over the shared coordinate.
-/
import Idealize.ShloMosaic.Lib.ValueLayout
import Idealize.ShloMosaic.PureOps.Ideal.Laws

noncomputable section

namespace Cert.LibLayout

open Idealize.ShloMosaic Idealize.ShloMosaic.ValueIdx

variable {α : Type}

/-- An `[a, 1]` array broadcast to `[a, b]` reads, at `(p, c)`, the operand's one entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[a]` array cast to `[a, 1]` reads, at `(p, u)`, the operand at `p`, whatever the unit coordinate `u`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- The host's broadcast of an `[a]` array along axis 0 of `[a, 1]` reads, at `(p, u)`, the operand at `p`. -/
theorem broadcastInDim_a_a1_apply {a : ℕ} (x : (⟨1, ![a]⟩ : Shape).Idx → α)
    (h : (⟨1, ![a]⟩ : Shape).BroadcastsInDim ⟨2, ![a, 1]⟩ ![0]) (p : Fin a) (u : Fin 1) :
    broadcastInDim ⟨2, ![a, 1]⟩ ![0] h x (ix2 p u) = x (ix1 p) := by
  refine broadcastInDim_apply _ h x (ix2 p u) (ix1 p) fun ax => ?_
  match ax with
  | ⟨0, _⟩ =>
    show p.val = if a = 1 then 0 else p.val
    split
    · have := p.isLt; omega
    · rfl

/-- The host's broadcast of an `[a, 1]` array to `[a, b]`, axes kept, reads at `(p, c)` the operand's entry of row `p`. -/
theorem broadcastInDim_a1_ab_apply {a b : ℕ} (x : (⟨2, ![a, 1]⟩ : Shape).Idx → α)
    (h : (⟨2, ![a, 1]⟩ : Shape).BroadcastsInDim ⟨2, ![a, b]⟩ ![0, 1]) (p : Fin a) (c : Fin b) :
    broadcastInDim ⟨2, ![a, b]⟩ ![0, 1] h x (ix2 p c) = x (ix2 p (0 : Fin 1)) := by
  refine broadcastInDim_apply _ h x (ix2 p c) (ix2 p (0 : Fin 1)) fun ax => ?_
  match ax with
  | ⟨0, _⟩ =>
    show p.val = if a = 1 then 0 else p.val
    split
    · have := p.isLt; omega
    · rfl
  | ⟨1, _⟩ => rfl

/-- The host's broadcast of a `[b]` array along axis 1 of `[1, b]` reads, at `(u, c)`, the operand at `c`. -/
theorem broadcastInDim_b_1b_apply {b : ℕ} (x : (⟨1, ![b]⟩ : Shape).Idx → α)
    (h : (⟨1, ![b]⟩ : Shape).BroadcastsInDim ⟨2, ![1, b]⟩ ![1]) (u : Fin 1) (c : Fin b) :
    broadcastInDim ⟨2, ![1, b]⟩ ![1] h x (ix2 u c) = x (ix1 c) := by
  refine broadcastInDim_apply _ h x (ix2 u c) (ix1 c) fun ax => ?_
  match ax with
  | ⟨0, _⟩ =>
    show c.val = if b = 1 then 0 else c.val
    split
    · have := c.isLt; omega
    · rfl

/-- The host's broadcast of a `[1, b]` array to `[a, b]`, axes kept, reads at `(p, c)` the operand's one row at `c`. -/
theorem broadcastInDim_1b_ab_apply {a b : ℕ} (x : (⟨2, ![1, b]⟩ : Shape).Idx → α)
    (h : (⟨2, ![1, b]⟩ : Shape).BroadcastsInDim ⟨2, ![a, b]⟩ ![0, 1]) (p : Fin a) (c : Fin b) :
    broadcastInDim ⟨2, ![a, b]⟩ ![0, 1] h x (ix2 p c) = x (ix2 (0 : Fin 1) c) := by
  refine broadcastInDim_apply _ h x (ix2 p c) (ix2 (0 : Fin 1) c) fun ax => ?_
  match ax with
  | ⟨0, _⟩ => rfl
  | ⟨1, _⟩ =>
    show c.val = if b = 1 then 0 else c.val
    split
    · have := c.isLt; omega
    · rfl

/-- The host's broadcast of a scalar reads, at any index, the scalar. -/
theorem broadcastInDim_scalar_apply {t : Shape} (x : (⟨0, ![]⟩ : Shape).Idx → α)
    (h : (⟨0, ![]⟩ : Shape).BroadcastsInDim t ![]) (j : t.Idx) :
    broadcastInDim t ![] h x j = x ix0 :=
  broadcastInDim_apply _ h x j ix0 fun ax => ax.elim0

/-- The host's rows-by-columns product, read at (a, b): `∑ c, A[a, c] · B[c, b]`, whatever the schedule key. -/
theorem dotGeneral_plain_apply {m k n : Nat} {φ₁ φ₂ : FTy} (prec : Option ContractPrecision) (sched : HostSchedule)
    (A : FVec Ideal ⟨2, ![m, k]⟩ φ₁) (B : FVec Ideal ⟨2, ![k, n]⟩ φ₂) (a : Fin m) (b : Fin n) :
    FloatOps.dotGeneral (DotDims.plain m k n) prec sched A B (ix2 a b)
      = ∑ c : Fin k, A (ix2 a c) * B (ix2 c b) := by
  -- the sum over the contraction index set, which has one axis of extent k
  rw [Ideal.dotGeneral_apply, ← Equiv.sum_comp (contrEquiv1 (DotDims.plain m k n) k rfl rfl).symm]
  refine Finset.sum_congr rfl fun c _ => ?_
  have hc := contrEquiv1_symm_val (DotDims.plain m k n) k rfl rfl c
  -- the left operand is read at (a, c), the right one at (c, b)
  have hl : (DotDims.plain m k n).lhsIdx (ix2 a b) ((contrEquiv1 _ k rfl rfl).symm c) = ix2 a c := by
    funext ax; apply Fin.ext
    match ax with
    | ⟨0, _⟩ => simp [DotDims.lhsIdx, DotDims.plain]; rfl
    | ⟨1, _⟩ => simp [DotDims.lhsIdx, DotDims.plain]; exact hc
  have hr : (DotDims.plain m k n).rhsIdx (ix2 a b) ((contrEquiv1 _ k rfl rfl).symm c) = ix2 c b := by
    funext ax; apply Fin.ext
    match ax with
    | ⟨0, _⟩ => simp [DotDims.rhsIdx, DotDims.plain]; exact hc
    | ⟨1, _⟩ => simp [DotDims.rhsIdx, DotDims.plain]; rfl
  rw [hl, hr]

end Cert.LibLayout

end
-- ==== Proof.LibDot.lean ====
/-
  General reading lemmas at the extended reals, over any extents:
  a matrix product into a zero accumulator and a host dot, rows by columns, as a sum over the shared coordinate;
  a product that contracts the FIRST axis of both operands (the transpose of the left one times the right one);
  a sum over `a · b` consecutive naturals as a double sum.
-/
import Idealize.ShloMosaic.Lib.ValueIdx
import Idealize.ShloMosaic.Lib.StackMember
import Idealize.ShloMosaic.PureOps.Ideal.Laws

noncomputable section

namespace Cert.LibDot

open Idealize.ShloMosaic Idealize.ShloMosaic.ValueIdx

/-- A rows-by-columns matrix product into the zero accumulator, read at (a, b): `∑ c, A[a, c] · B[c, b]`. -/
theorem matmul_plain_zero_apply {m k n : Nat} {φ₁ φ₂ : FTy} (prec : Option ContractPrecision)
    (A : FVec Ideal ⟨2, ![m, k]⟩ φ₁) (B : FVec Ideal ⟨2, ![k, n]⟩ φ₂) (a : Fin m) (b : Fin n) :
    FloatOps.matmul (DotDims.plain m k n) prec A B (constant ⟨2, ![m, n]⟩ .f32 0x00000000#32) (ix2 a b)
      = ∑ c : Fin k, A (ix2 a c) * B (ix2 c b) := by
  -- the product into the zero accumulator is the bare sum over the contraction index set, which has one axis of extent k
  rw [Ideal.matmul_constant_zero_apply, ← Equiv.sum_comp (contrEquiv1 (DotDims.plain m k n) k rfl rfl).symm]
  refine Finset.sum_congr rfl fun c _ => ?_
  have hc := contrEquiv1_symm_val (DotDims.plain m k n) k rfl rfl c
  -- the left operand is read at (a, c): its row is the output's row, its column the contracted coordinate
  have hl : (DotDims.plain m k n).lhsIdx (ix2 a b) ((contrEquiv1 _ k rfl rfl).symm c) = ix2 a c := by
    funext ax; apply Fin.ext
    match ax with
    | ⟨0, _⟩ => simp [DotDims.lhsIdx, DotDims.plain]; rfl
    | ⟨1, _⟩ => simp [DotDims.lhsIdx, DotDims.plain]; exact hc
  -- the right operand is read at (c, b): its row is the contracted coordinate, its column the output's column
  have hr : (DotDims.plain m k n).rhsIdx (ix2 a b) ((contrEquiv1 _ k rfl rfl).symm c) = ix2 c b := by
    funext ax; apply Fin.ext
    match ax with
    | ⟨0, _⟩ => simp [DotDims.rhsIdx, DotDims.plain]; exact hc
    | ⟨1, _⟩ => simp [DotDims.rhsIdx, DotDims.plain]; rfl
  rw [hl, hr]

/-- The product that contracts the first axis of both operands, read at (a, b): the accumulator there plus
    `∑ c, A[c, a] · B[c, b]`. -/
theorem matmul_colcol_apply {k m n : Nat} {φ₁ φ₂ : FTy}
    (w : DotDims.WF ⟨2, ![k, m]⟩ ⟨2, ![k, n]⟩ ⟨2, ![m, n]⟩ [0] [0] [1] [1] [] [])
    (prec : Option ContractPrecision) (A : FVec Ideal ⟨2, ![k, m]⟩ φ₁) (B : FVec Ideal ⟨2, ![k, n]⟩ φ₂)
    (acc : FVec Ideal ⟨2, ![m, n]⟩ .f32) (a : Fin m) (b : Fin n) :
    FloatOps.matmul (⟨[0], [0], [1], [1], [], [], w⟩ : DotDims _ _ _) prec A B acc (ix2 a b)
      = acc (ix2 a b) + ∑ c : Fin k, A (ix2 c a) * B (ix2 c b) := by
  -- the accumulator plus the sum over the contraction index set, which has one axis of extent k
  rw [Ideal.matmul_apply,
    ← Equiv.sum_comp (contrEquiv1 (⟨[0], [0], [1], [1], [], [], w⟩ : DotDims _ _ _) k rfl rfl).symm]
  refine congrArg (acc (ix2 a b) + ·) (Finset.sum_congr rfl fun c _ => ?_)
  have hc := contrEquiv1_symm_val
    (⟨[0], [0], [1], [1], [], [], w⟩ : DotDims ⟨2, ![k, m]⟩ ⟨2, ![k, n]⟩ ⟨2, ![m, n]⟩) k rfl rfl c
  -- the left operand is read at (c, a): its row is the contracted coordinate, its column the output's row
  have hl : (⟨[0], [0], [1], [1], [], [], w⟩ : DotDims ⟨2, ![k, m]⟩ ⟨2, ![k, n]⟩ ⟨2, ![m, n]⟩).lhsIdx (ix2 a b)
      ((contrEquiv1 _ k rfl rfl).symm c) = ix2 c a := by
    funext ax; apply Fin.ext
    match ax with
    | ⟨0, _⟩ => simp [DotDims.lhsIdx]; exact hc
    | ⟨1, _⟩ => simp [DotDims.lhsIdx]; rfl
  -- the right operand is read at (c, b): its row is the contracted coordinate, its column the output's column
  have hr : (⟨[0], [0], [1], [1], [], [], w⟩ : DotDims ⟨2, ![k, m]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact hc
    | ⟨1, _⟩ => simp [DotDims.rhsIdx]; rfl
  rw [hl, hr]

/-- A sum over the first `a · b` naturals is the sum over `q < a` of the sums over `r < b` at `q · b + r`. -/
theorem sum_range_mul {M : Type*} [AddCommMonoid M] (f : ℕ → M) (a b : ℕ) :
    ∑ i ∈ Finset.range (a * b), f i = ∑ q ∈ Finset.range a, ∑ r ∈ Finset.range b, f (q * b + r) := by
  induction a with
  | zero => simp
  | succ a ih =>
    -- the first (a + 1) · b naturals are the first a · b of them followed by the b naturals a · b + r
    rw [Nat.succ_mul, Finset.sum_range_add, Finset.sum_range_succ, ih]

end Cert.LibDot

end
-- ==== Proof.Spec.lean ====
/-
  One mean-aggregating graph layer and the final linear layer as functions of their arrays, entry by entry over the
  extended reals, and the two ways the programs spell them: the host's whole-array operations, and a block body's
  vector operations on a block of rows.

  For a row `r` and an output column `j`, with `A` the summed neighbour features, `C` the neighbour counts kept as a
  column, `X` the node's own features, `L`, `R` the two (already transposed) weight matrices and `B` the bias kept as a row:

    layer[r, j] = max( (∑ₖ (A[r, k] / max(C[r], 1)) · L[k, j]) + B[j] + ∑ₖ X[r, k] · R[k, j] , 0 )
    last [r, j] = (∑ₖ G[r, k] · L[k, j]) + B[j]

  Every row of the result depends on the same row of `A`, `C`, `X` only, which is what lets a kernel compute it block of
  rows by block of rows. No law of arithmetic is used: both spellings are the same sums in the same order.
-/
import proofs.«418015_j5815385719105_1_alg».proof.Proof.LibLayout
import proofs.«418015_j5815385719105_1_alg».proof.Proof.LibDot

noncomputable section

namespace Cert.Spec

open Idealize.ShloMosaic Idealize.ShloMosaic.ValueIdx Cert.LibLayout Cert.LibDot

variable {N K M : Nat}

/-- The layer's entry at row `r`, column `j`. -/
def sageAt (A : FVec Ideal ⟨2, ![N, K]⟩ .f32) (C : FVec Ideal ⟨2, ![N, 1]⟩ .f32) (X : FVec Ideal ⟨2, ![N, K]⟩ .f32)
    (L R : FVec Ideal ⟨2, ![K, M]⟩ .f32) (B : FVec Ideal ⟨2, ![1, M]⟩ .f32) (r : Fin N) (j : Fin M) : EReal :=
  max (((∑ k : Fin K, Ideal.div (A (ix2 r k)) (max (C (ix2 r (0 : Fin 1))) (Ideal.ofBits .f32 0x3F800000#32)) * L (ix2 k j))
        + B (ix2 (0 : Fin 1) j)) + ∑ k : Fin K, X (ix2 r k) * R (ix2 k j))
    (Ideal.ofBits .f32 0x00000000#32)

/-- The layer as a whole array. -/
def sage (A : FVec Ideal ⟨2, ![N, K]⟩ .f32) (C : FVec Ideal ⟨2, ![N, 1]⟩ .f32) (X : FVec Ideal ⟨2, ![N, K]⟩ .f32)
    (L R : FVec Ideal ⟨2, ![K, M]⟩ .f32) (B : FVec Ideal ⟨2, ![1, M]⟩ .f32) : FVec Ideal ⟨2, ![N, M]⟩ .f32 :=
  fun i => sageAt A C X L R B (i 0) (i 1)

theorem sage_ix2 (A : FVec Ideal ⟨2, ![N, K]⟩ .f32) (C : FVec Ideal ⟨2, ![N, 1]⟩ .f32) (X : FVec Ideal ⟨2, ![N, K]⟩ .f32)
    (L R : FVec Ideal ⟨2, ![K, M]⟩ .f32) (B : FVec Ideal ⟨2, ![1, M]⟩ .f32) (r : Fin N) (j : Fin M) :
    sage A C X L R B (ix2 r j) = sageAt A C X L R B r j := rfl

/-- The last linear layer's entry at row `r`, column `j`. -/
def fcAt (G : FVec Ideal ⟨2, ![N, K]⟩ .f32) (L : FVec Ideal ⟨2, ![K, M]⟩ .f32) (B : FVec Ideal ⟨2, ![1, M]⟩ .f32)
    (r : Fin N) (j : Fin M) : EReal :=
  (∑ k : Fin K, G (ix2 r k) * L (ix2 k j)) + B (ix2 (0 : Fin 1) j)

/-- The last linear layer as a whole array. -/
def fc (G : FVec Ideal ⟨2, ![N, K]⟩ .f32) (L : FVec Ideal ⟨2, ![K, M]⟩ .f32) (B : FVec Ideal ⟨2, ![1, M]⟩ .f32) :
    FVec Ideal ⟨2, ![N, M]⟩ .f32 :=
  fun i => fcAt G L B (i 0) (i 1)

theorem fc_ix2 (G : FVec Ideal ⟨2, ![N, K]⟩ .f32) (L : FVec Ideal ⟨2, ![K, M]⟩ .f32) (B : FVec Ideal ⟨2, ![1, M]⟩ .f32)
    (r : Fin N) (j : Fin M) : fc G L B (ix2 r j) = fcAt G L B r j := rfl

/-! ## The host's spelling -/

/-- The host's layer — the sums divided by the clamped counts broadcast over the columns, times the left weights, plus
    the bias broadcast over the rows, plus the own features times the right weights, clamped at zero — is `sage` of the
    counts made a column and the bias made a row. -/
theorem host_sage_eq (d : DotDims ⟨2, ![N, K]⟩ ⟨2, ![K, M]⟩ ⟨2, ![N, M]⟩) (hd : d = DotDims.plain N K M)
    (A X : FVec Ideal ⟨2, ![N, K]⟩ .f32) (cnt : FVec Ideal ⟨1, ![N]⟩ .f32) (L R : FVec Ideal ⟨2, ![K, M]⟩ .f32)
    (bl : FVec Ideal ⟨1, ![M]⟩ .f32)
    (h1 : (⟨0, ![]⟩ : Shape).BroadcastsInDim ⟨1, ![N]⟩ ![])
    (h2 : (⟨1, ![N]⟩ : Shape).BroadcastsInDim ⟨2, ![N, 1]⟩ ![0])
    (h3 : (⟨2, ![N, 1]⟩ : Shape).BroadcastsInDim ⟨2, ![N, K]⟩ ![0, 1])
    (h4 : (⟨1, ![M]⟩ : Shape).BroadcastsInDim ⟨2, ![1, M]⟩ ![1])
    (h5 : (⟨2, ![1, M]⟩ : Shape).BroadcastsInDim ⟨2, ![N, M]⟩ ![0, 1])
    (h6 : (⟨0, ![]⟩ : Shape).BroadcastsInDim ⟨2, ![N, M]⟩ ![])
    (c1 : (⟨1, ![N]⟩ : Shape).ShapeCasts ⟨2, ![N, 1]⟩) (c2 : (⟨1, ![M]⟩ : Shape).ShapeCasts ⟨2, ![1, M]⟩) :
    maximumf (addf (addf (Host.dotGeneral d none
          (Host.divf A (broadcastInDim ⟨2, ![N, K]⟩ ![0, 1] h3 (broadcastInDim ⟨2, ![N, 1]⟩ ![0] h2
            (maximumf cnt (broadcastInDim ⟨1, ![N]⟩ ![] h1 (constant (F := Ideal) ⟨0, ![]⟩ .f32 0x3F800000#32)))))) L)
        (broadcastInDim ⟨2, ![N, M]⟩ ![0, 1] h5 (broadcastInDim ⟨2, ![1, M]⟩ ![1] h4 bl)))
        (Host.dotGeneral d none X R))
      (broadcastInDim ⟨2, ![N, M]⟩ ![] h6 (constant (F := Ideal) ⟨0, ![]⟩ .f32 0x00000000#32))
    = sage A (shapeCast ⟨2, ![N, 1]⟩ cnt c1) X L R (shapeCast ⟨2, ![1, M]⟩ bl c2) := by
  subst hd
  funext i
  obtain ⟨r, j, rfl⟩ : ∃ (r : Fin N) (j : Fin M), i = ix2 r j := ⟨i 0, i 1, eq_ix2 i⟩
  rw [sage_ix2]
  unfold sageAt
  -- the outer operations are entrywise; the two products are sums over the shared coordinate
  show max ((FloatOps.dotGeneral (DotDims.plain N K M) none .single _ L (ix2 r j) + _) + FloatOps.dotGeneral (DotDims.plain N K M) none .single X R (ix2 r j)) _ = _
  rw [dotGeneral_plain_apply, dotGeneral_plain_apply, broadcastInDim_1b_ab_apply, broadcastInDim_b_1b_apply,
    broadcastInDim_scalar_apply, shapeCast_a_1a_apply]
  congr 3
  refine Finset.sum_congr rfl fun k _ => ?_
  -- the divisor at (r, k) is the clamped count of row r
  show Ideal.div (A (ix2 r k)) _ * _ = _
  rw [broadcastInDim_a1_ab_apply, broadcastInDim_a_a1_apply, shapeCast_a_a1_apply]
  show Ideal.div (A (ix2 r k)) (max (cnt (ix1 r)) _) * _ = _
  rw [broadcastInDim_scalar_apply]
  rfl

/-- The host's last layer — the product plus the bias broadcast over the rows — is `fc` of the bias made a row. -/
theorem host_fc_eq (d : DotDims ⟨2, ![N, K]⟩ ⟨2, ![K, M]⟩ ⟨2, ![N, M]⟩) (hd : d = DotDims.plain N K M)
    (G : FVec Ideal ⟨2, ![N, K]⟩ .f32) (L : FVec Ideal ⟨2, ![K, M]⟩ .f32) (b : FVec Ideal ⟨1, ![M]⟩ .f32)
    (h4 : (⟨1, ![M]⟩ : Shape).BroadcastsInDim ⟨2, ![1, M]⟩ ![1])
    (h5 : (⟨2, ![1, M]⟩ : Shape).BroadcastsInDim ⟨2, ![N, M]⟩ ![0, 1])
    (c2 : (⟨1, ![M]⟩ : Shape).ShapeCasts ⟨2, ![1, M]⟩) :
    addf (Host.dotGeneral d none G L) (broadcastInDim ⟨2, ![N, M]⟩ ![0, 1] h5 (broadcastInDim ⟨2, ![1, M]⟩ ![1] h4 b))
    = fc G L (shapeCast ⟨2, ![1, M]⟩ b c2) := by
  subst hd
  funext i
  obtain ⟨r, j, rfl⟩ : ∃ (r : Fin N) (j : Fin M), i = ix2 r j := ⟨i 0, i 1, eq_ix2 i⟩
  rw [fc_ix2]
  unfold fcAt
  show FloatOps.dotGeneral (DotDims.plain N K M) none .single G L (ix2 r j) + _ = _
  rw [dotGeneral_plain_apply, broadcastInDim_1b_ab_apply, broadcastInDim_b_1b_apply, shapeCast_a_1a_apply]

/-! ## A block body's spelling -/

/-- A block body's layer on a block of `n` rows — the same operations as vector operations, the two products into a zero
    accumulator — read at (p, q) is the layer's entry of the block's arrays. -/
theorem body_sage_apply {n : Nat} (d : DotDims ⟨2, ![n, K]⟩ ⟨2, ![K, M]⟩ ⟨2, ![n, M]⟩) (hd : d = DotDims.plain n K M)
    (x0 : FVec Ideal ⟨2, ![n, K]⟩ .f32) (x2 : FVec Ideal ⟨2, ![n, 1]⟩ .f32) (x8 : FVec Ideal ⟨2, ![K, M]⟩ .f32)
    (x11 : FVec Ideal ⟨2, ![1, M]⟩ .f32) (x15 : FVec Ideal ⟨2, ![n, K]⟩ .f32) (x16 : FVec Ideal ⟨2, ![K, M]⟩ .f32)
    (hb1 : (⟨2, ![n, 1]⟩ : Shape).Broadcasts ⟨2, ![n, K]⟩) (hb2 : (⟨2, ![1, M]⟩ : Shape).Broadcasts ⟨2, ![n, M]⟩)
    (p : Fin n) (q : Fin M) :
    maximumf (addf (addf (matmul d none
          (divf x0 (broadcastTo ⟨2, ![n, K]⟩ (maximumf x2 (broadcast ⟨2, ![n, 1]⟩ (Scalar.ofBits (F := Ideal) .f32 0x3F800000#32))) hb1))
          x8 (constant ⟨2, ![n, M]⟩ .f32 0x00000000#32))
        (broadcastTo ⟨2, ![n, M]⟩ x11 hb2))
        (matmul d none x15 x16 (constant ⟨2, ![n, M]⟩ .f32 0x00000000#32)))
      (broadcast ⟨2, ![n, M]⟩ (Scalar.ofBits (F := Ideal) .f32 0x00000000#32)) (ix2 p q)
    = sageAt x0 x2 x15 x8 x16 x11 p q := by
  subst hd
  unfold sageAt
  show max ((FloatOps.matmul (DotDims.plain n K M) none _ x8 _ (ix2 p q) + _) + FloatOps.matmul (DotDims.plain n K M) none x15 x16 _ (ix2 p q)) _ = _
  rw [matmul_plain_zero_apply, matmul_plain_zero_apply, broadcastTo_1b_ab_apply]
  refine congrArg₂ max (congrArg₂ (· + ·) (congrArg₂ (· + ·) (Finset.sum_congr rfl fun k _ => ?_) rfl) rfl) rfl
  -- the divisor at (p, k) is the clamped count of row p
  show Ideal.div (x0 (ix2 p k)) _ * _ = _
  rw [broadcastTo_a1_ab_apply]
  rfl

/-- A block body's last layer on a block of `n` rows, read at (p, q). -/
theorem body_fc_apply {n : Nat} (d : DotDims ⟨2, ![n, K]⟩ ⟨2, ![K, M]⟩ ⟨2, ![n, M]⟩) (hd : d = DotDims.plain n K M)
    (x0 : FVec Ideal ⟨2, ![n, K]⟩ .f32) (x2 : FVec Ideal ⟨2, ![K, M]⟩ .f32) (x5 : FVec Ideal ⟨2, ![1, M]⟩ .f32)
    (hb2 : (⟨2, ![1, M]⟩ : Shape).Broadcasts ⟨2, ![n, M]⟩) (p : Fin n) (q : Fin M) :
    addf (matmul d none x0 x2 (constant ⟨2, ![n, M]⟩ .f32 0x00000000#32)) (broadcastTo ⟨2, ![n, M]⟩ x5 hb2) (ix2 p q)
    = fcAt x0 x2 x5 p q := by
  subst hd
  unfold fcAt
  show FloatOps.matmul (DotDims.plain n K M) none x0 x2 _ (ix2 p q) + _ = _
  rw [matmul_plain_zero_apply, broadcastTo_1b_ab_apply]

end Cert.Spec

end
-- ==== Proof.Terms.lean ====
/-
  The kernel program's result as one term of its argument arrays.

  `src`, `dst` are the edge list; a row index below zero is read from the end, as the host's indexing does. For an array
  `y` of node features, `agg y` sums `y`'s rows at the source nodes into the destination nodes' rows, and `cntCol` counts
  the edges into each node. The first layer is `Spec.sage` of the input features and the first weights (`h1`), the second
  of `h1` and the second weights (`h2`), and the result is the last linear layer of `h2` (`out`).
-/
import proofs.«418015_j5815385719105_1_alg».proof.Proof.Gen.KernelIdeal
import proofs.«418015_j5815385719105_1_alg».proof.Proof.Spec
import Idealize.ShloMosaic.Lib.StableHlo.Run

set_option maxRecDepth 16384

noncomputable section

namespace Cert.KernelIdeal.Val

open Cert.KernelIdeal Cert.KernelIdeal.Gen Idealize.ShloMosaic Idealize.ShloMosaic.TcCoe Idealize.SL.Sem
open Idealize.ShloMosaic.StableHlo

variable (m : (ℓ : Loc nD τ sig) → Buf (Elt Ideal) ℓ) (ρ : Dev nD → PrngReg) (c : Dev nD)

/-- The source nodes as a column of row indices. -/
def rowsOf : (⟨S400000x1, .i32⟩ : BufTy).Contents (Elt Ideal) :=
  broadcastInDim S400000x1 ![0] bcast_S400000_S400000x1_0
    (select (cmpi .slt (m ((c.tc : Thread nD τ).loc main_arg8)) (broadcastInDim S400000 ![] bcast_S_S400000 (constantI S_ 32 0#32)))
      (addi (m ((c.tc : Thread nD τ).loc main_arg8)) (broadcastInDim S400000 ![] bcast_S_S400000 (constantI S_ 32 200000#32)))
      (m ((c.tc : Thread nD τ).loc main_arg8)))

/-- The destination nodes as a column of row indices. -/
def dstOf : (⟨S400000x1, .i32⟩ : BufTy).Contents (Elt Ideal) :=
  broadcastInDim S400000x1 ![0] bcast_S400000_S400000x1_0 (m ((c.tc : Thread nD τ).loc main_arg9))

/-- The rows of `y` at the source nodes, summed into the destination nodes' rows. -/
def agg (y : FVec Ideal S200000x256 .f32) : FVec Ideal S200000x256 .f32 :=
  Host.scatterAdd scatter_S200000x256_S400000x1_S400000x256_1_0_0_1
    (broadcastInDim S200000x256 ![] bcast_S_S200000x256 (constant S_ .f32 0x00000000#32))
    (dstOf m c)
    (Host.gather gather_S200000x256_S400000x1_S400000x256_1_0_n_n_0_1_1256 y (rowsOf m c))

/-- The number of edges into each node. -/
def cnt : FVec Ideal S200000 .f32 :=
  Host.scatterAdd scatter_S200000_S400000x1_S400000_n_0_0_1
    (broadcastInDim S200000 ![] bcast_S_S200000 (constant S_ .f32 0x00000000#32))
    (dstOf m c)
    (broadcastInDim S400000 ![] bcast_S_S400000 (constant S_ .f32 0x3F800000#32))

/-- The counts as a column. -/
def cntCol : FVec Ideal S200000x1 .f32 := shapeCast S200000x1 (cnt m c) shapeCasts_S200000_S200000x1

/-- The first layer's weights on the aggregated features, transposed. -/
def wl0 : FVec Ideal S256x256 .f32 :=
  transpose S256x256 [1, 0] (shapeCast S256x256 (extractStridedSlice S1x1x256x256 ![0, 0, 0, 0] (m ((c.tc : Thread nD τ).loc main_arg3)) slices_S2x3x256x256_S1x1x256x256_0_0_0_0) shapeCasts_S1x1x256x256_S256x256) transposes_S256x256_S256x256_1_0
/-- The first layer's weights on the node's own features, transposed. -/
def wr0 : FVec Ideal S256x256 .f32 :=
  transpose S256x256 [1, 0] (shapeCast S256x256 (extractStridedSlice S1x1x256x256 ![0, 0, 0, 0] (m ((c.tc : Thread nD τ).loc main_arg5)) slices_S2x3x256x256_S1x1x256x256_0_0_0_0) shapeCasts_S1x1x256x256_S256x256) transposes_S256x256_S256x256_1_0
/-- The first layer's bias as a row. -/
def bias0 : FVec Ideal S1x256 .f32 :=
  shapeCast S1x256 (shapeCast S256 (extractStridedSlice S1x1x256 ![0, 0, 0] (m ((c.tc : Thread nD τ).loc main_arg4)) slices_S2x3x256_S1x1x256_0_0_0) shapeCasts_S1x1x256_S256) shapeCasts_S256_S1x256
/-- The second layer's weights on the aggregated features, transposed. -/
def wl1 : FVec Ideal S256x256 .f32 :=
  transpose S256x256 [1, 0] (shapeCast S256x256 (extractStridedSlice S1x1x256x256 ![1, 0, 0, 0] (m ((c.tc : Thread nD τ).loc main_arg3)) slices_S2x3x256x256_S1x1x256x256_1_0_0_0) shapeCasts_S1x1x256x256_S256x256) transposes_S256x256_S256x256_1_0
/-- The second layer's weights on the node's own features, transposed. -/
def wr1 : FVec Ideal S256x256 .f32 :=
  transpose S256x256 [1, 0] (shapeCast S256x256 (extractStridedSlice S1x1x256x256 ![1, 0, 0, 0] (m ((c.tc : Thread nD τ).loc main_arg5)) slices_S2x3x256x256_S1x1x256x256_1_0_0_0) shapeCasts_S1x1x256x256_S256x256) transposes_S256x256_S256x256_1_0
/-- The second layer's bias as a row. -/
def bias1 : FVec Ideal S1x256 .f32 :=
  shapeCast S1x256 (shapeCast S256 (extractStridedSlice S1x1x256 ![1, 0, 0] (m ((c.tc : Thread nD τ).loc main_arg4)) slices_S2x3x256_S1x1x256_1_0_0) shapeCasts_S1x1x256_S256) shapeCasts_S256_S1x256
/-- The last layer's weights, transposed. -/
def fcw : FVec Ideal S256x128 .f32 :=
  transpose S256x128 [1, 0] (m ((c.tc : Thread nD τ).loc main_arg6)) transposes_S128x256_S256x128_1_0
/-- The last layer's bias as a row. -/
def fcb : FVec Ideal S1x128 .f32 := shapeCast S1x128 (m ((c.tc : Thread nD τ).loc main_arg7)) shapeCasts_S128_S1x128

/-- The first layer's output. -/
def h1 : FVec Ideal S200000x256 .f32 :=
  Cert.Spec.sage (agg m c (m ((c.tc : Thread nD τ).loc main_arg0))) (cntCol m c) (m ((c.tc : Thread nD τ).loc main_arg0)) (wl0 m c) (wr0 m c) (bias0 m c)
/-- The second layer's output. -/
def h2 : FVec Ideal S200000x256 .f32 :=
  Cert.Spec.sage (agg m c (h1 m c)) (cntCol m c) (h1 m c) (wl1 m c) (wr1 m c) (bias1 m c)
/-- The program's result. -/
def out : FVec Ideal S200000x128 .f32 := Cert.Spec.fc (h2 m c) (fcw m c) (fcb m c)

end Cert.KernelIdeal.Val

end
-- ==== Proof.Reg0.lean ====
/-
  Region 0 (the first layer's kernel), read as values.
  The output array after the region, as one function of the arrays the region finds: grid point `t` computes rows
  `5000·t … 5000·t + 4999` of the result from the same rows of the row-blocked operands and from the whole resident
  operands, the 40 row blocks tile the array, so the array ends at `Cert.Spec.sage` of the operands' arrays.
-/
import proofs.«418015_j5815385719105_1_alg».proof.Proof.Gen.KernelIdeal.Frame
import proofs.«418015_j5815385719105_1_alg».proof.Proof.Spec
import Idealize.ShloMosaic.Lib.Pipeline.Value

set_option maxRecDepth 16384

noncomputable section

namespace Cert.KernelIdeal.Val0

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The body's stored value at (p, q) is the layer's entry of the body's loaded blocks. -/
theorem pay_apply (x0 : Vec Ideal S5000x256 .f32) (x2 : Vec Ideal S5000x1 .f32) (x8 : Vec Ideal S256x256 .f32)
    (x11 : Vec Ideal S1x256 .f32) (x15 : Vec Ideal S5000x256 .f32) (x16 : Vec Ideal S256x256 .f32) (p : Fin 5000) (q : Fin 256) :
    k0_pay1 (F := Ideal) x0 x2 x8 x11 x15 x16 (ix2 p q) = Cert.Spec.sageAt x0 x2 x15 x8 x16 x11 p q := by
  unfold k0_pay1
  simp only [shapeCast_self]
  exact Cert.Spec.body_sage_apply _ rfl x0 x2 x8 x11 x15 x16 _ _ p q

/-- The printed index maps over the grid: the three row-blocked operands and the output move with the point along the
    rows; the two weight matrices and the bias row stay at block (0, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

theorem lt_N (t : Fin cfg0.N) : t.val < 40 := Nat.lt_of_lt_of_eq t.isLt (N_0 : cfg0.N = 40)

-- reading a block through its window unfolds the window's buffer type out of the program's table of buffers
set_option maxHeartbeats 4000000 in
/-- WHAT POINT `t` WRITES BACK is block `t` of the layer of the arrays the region finds. -/
theorem flushed_eq (c : Dev nD) (t : Fin cfg0.N) :
    (dat0 V c).flushed 6 t = ((cfg0.win 6).blk t).view.read (Elt Ideal)
      (Cert.Spec.sage (V c main_v9) (V c main_v23) (V c main_arg0) (V c main_v20) (V c main_v21) (V c main_v22)) := by
  show (cfg0.win 6).cut (grid0.coords t) ((dat0 V c).after 6 t) = _
  rw [after0_6]
  unfold out0_6
  rw [View.canon_unit_zero hz]
  simp only [View.ld_unit_zero (S := S5000x256) hz, View.ld_unit_zero (S := S5000x1) hz,
    View.ld_unit_zero (S := S256x256) hz, View.ld_unit_zero (S := S1x256) hz]
  obtain ⟨a0, a1, b0, b1, c0, c1, d0, d1, e0, e1, f0, f1, g0, g1⟩ := idx_facts t
  have ht := lt_N t
  funext j
  obtain ⟨p, q, rfl⟩ : ∃ (p : Fin 5000) (q : Fin 256), j = ix2 p q := ⟨j 0, j 1, eq_ix2 j⟩
  show k0_pay1 (F := Ideal) (iblk0 V c 0 t) (iblk0 V c 1 t) (iblk0 V c 3 t) (iblk0 V c 5 t) (iblk0 V c 2 t) (iblk0 V c 4 t) (ix2 p q)
    = Cert.Spec.sage (V c main_v9) (V c main_v23) (V c main_arg0) (V c main_v20) (V c main_v21) (V c main_v22)
        (((cfg0.win 6).blk t).view.emb (ix2 p q))
  refine (pay_apply (iblk0 V c 0 t) (iblk0 V c 1 t) (iblk0 V c 3 t) (iblk0 V c 5 t) (iblk0 V c 2 t) (iblk0 V c 4 t) p q).trans ?_
  -- the output's entry (p, q) of block t sits at row 5000·t + p
  have hemb : ((cfg0.win 6).blk t).view.emb (ix2 p q)
      = ix2 (⟨t.val * 5000 + p.val, by have := p.isLt; omega⟩ : Fin 200000) q := by
    funext a; apply Fin.ext
    match a with
    | ⟨0, _⟩ => show win0_6.index t (0 : Fin 2) * 5000 + 1 * p.val = t.val * 5000 + p.val; rw [g0]; omega
    | ⟨1, _⟩ => show win0_6.index t (1 : Fin 2) * 256 + 1 * q.val = q.val; rw [g1]; omega
  rw [hemb, Cert.Spec.sage_ix2]
  -- each operand's block, read where the body reads it, is the operand's array at the matching row
  have hA : ∀ k : Fin 256, (iblk0 V c 0 t : Vec Ideal S5000x256 .f32) (ix2 p k)
      = (V c main_v9 : S200000x256.Idx → EReal) (ix2 (⟨t.val * 5000 + p.val, by have := p.isLt; omega⟩ : Fin 200000) k) := fun k => by
    show V c main_v9 (((cfg0.win 0).blk t).view.emb (ix2 p k)) = _
    congr 1
    funext a; apply Fin.ext
    match a with
    | ⟨0, _⟩ => show win0_0.index t (0 : Fin 2) * 5000 + 1 * p.val = t.val * 5000 + p.val; rw [a0]; omega
    | ⟨1, _⟩ => show win0_0.index t (1 : Fin 2) * 256 + 1 * k.val = k.val; rw [a1]; omega
  have hC : (iblk0 V c 1 t : Vec Ideal S5000x1 .f32) (ix2 p (0 : Fin 1))
      = (V c main_v23 : S200000x1.Idx → EReal) (ix2 (⟨t.val * 5000 + p.val, by have := p.isLt; omega⟩ : Fin 200000) (0 : Fin 1)) := by
    show V c main_v23 (((cfg0.win 1).blk t).view.emb (ix2 p (0 : Fin 1))) = _
    congr 1
    funext a; apply Fin.ext
    match a with
    | ⟨0, _⟩ => show win0_1.index t (0 : Fin 2) * 5000 + 1 * p.val = t.val * 5000 + p.val; rw [b0]; omega
    | ⟨1, _⟩ => show win0_1.index t (1 : Fin 2) * 1 + 1 * 0 = 0; rw [b1]
  have hX : ∀ k : Fin 256, (iblk0 V c 2 t : Vec Ideal S5000x256 .f32) (ix2 p k)
      = (V c main_arg0 : S200000x256.Idx → EReal) (ix2 (⟨t.val * 5000 + p.val, by have := p.isLt; omega⟩ : Fin 200000) k) := fun k => by
    show V c main_arg0 (((cfg0.win 2).blk t).view.emb (ix2 p k)) = _
    congr 1
    funext a; apply Fin.ext
    match a with
    | ⟨0, _⟩ => show win0_2.index t (0 : Fin 2) * 5000 + 1 * p.val = t.val * 5000 + p.val; rw [c0]; omega
    | ⟨1, _⟩ => show win0_2.index t (1 : Fin 2) * 256 + 1 * k.val = k.val; rw [c1]; omega
  have hL : ∀ k : Fin 256, (iblk0 V c 3 t : Vec Ideal S256x256 .f32) (ix2 k q) = (V c main_v20 : S256x256.Idx → EReal) (ix2 k q) := fun k => by
    show V c main_v20 (((cfg0.win 3).blk t).view.emb (ix2 k q)) = _
    congr 1
    funext a; apply Fin.ext
    match a with
    | ⟨0, _⟩ => show win0_3.index t (0 : Fin 2) * 256 + 1 * k.val = k.val; rw [d0]; omega
    | ⟨1, _⟩ => show win0_3.index t (1 : Fin 2) * 256 + 1 * q.val = q.val; rw [d1]; omega
  have hR : ∀ k : Fin 256, (iblk0 V c 4 t : Vec Ideal S256x256 .f32) (ix2 k q) = (V c main_v21 : S256x256.Idx → EReal) (ix2 k q) := fun k => by
    show V c main_v21 (((cfg0.win 4).blk t).view.emb (ix2 k q)) = _
    congr 1
    funext a; apply Fin.ext
    match a with
    | ⟨0, _⟩ => show win0_4.index t (0 : Fin 2) * 256 + 1 * k.val = k.val; rw [e0]; omega
    | ⟨1, _⟩ => show win0_4.index t (1 : Fin 2) * 256 + 1 * q.val = q.val; rw [e1]; omega
  have hB : (iblk0 V c 5 t : Vec Ideal S1x256 .f32) (ix2 (0 : Fin 1) q) = (V c main_v22 : S1x256.Idx → EReal) (ix2 (0 : Fin 1) q) := by
    show V c main_v22 (((cfg0.win 5).blk t).view.emb (ix2 (0 : Fin 1) q)) = _
    congr 1
    funext a; apply Fin.ext
    match a with
    | ⟨0, _⟩ => show win0_5.index t (0 : Fin 2) * 1 + 1 * 0 = 0; rw [f0]
    | ⟨1, _⟩ => show win0_5.index t (1 : Fin 2) * 256 + 1 * q.val = q.val; rw [f1]; omega
  unfold Cert.Spec.sageAt
  rw [hC, hB]
  simp only [hA, hX, hL, hR]

/-- An index of the array is in point `t`'s block iff each coordinate is in the block's range on its axis. -/
theorem mem_blk (t : Fin cfg0.N) (i : S200000x256.Idx) :
    i ∈ ((cfg0.win 6).blk t).view.set ↔ ∀ a : Fin 2, win0_6.index t a * S5000x256.size a ≤ (i a).val ∧ (i a).val < win0_6.index t a * S5000x256.size a + S5000x256.size a := by
  show i ∈ ((View.whole main_v24).slice (win0_6.rect t)).set ↔ _
  rw [View.set_slice_whole, Rect.mem_set_unit]
  exact Iff.rfl

/-- Every row of the array is in the block of the point its row number divided by 5000 names. -/
theorem cover (i : S200000x256.Idx) : ∃ t : Fin cfg0.N, (cfg0.win 6).flush t = true ∧ i ∈ ((cfg0.win 6).blk t).view.set := by
  have hi0 : (i 0).val < 200000 := (i 0).isLt
  have hi1 : (i 1).val < 256 := (i 1).isLt
  have hN : cfg0.N = 40 := N_0
  refine ⟨⟨(i 0).val / 5000, by rw [hN]; omega⟩, flush0_6 _, ?_⟩
  rw [mem_blk]
  obtain ⟨-, -, -, -, -, -, -, -, -, -, -, -, g0, g1⟩ := idx_facts ⟨(i 0).val / 5000, by rw [hN]; omega⟩
  intro a
  match a with
  | ⟨0, _⟩ => show win0_6.index _ (0 : Fin 2) * 5000 ≤ (i 0).val ∧ (i 0).val < win0_6.index _ (0 : Fin 2) * 5000 + 5000; rw [g0]; show (i 0).val / 5000 * 5000 ≤ (i 0).val ∧ (i 0).val < (i 0).val / 5000 * 5000 + 5000; omega
  | ⟨1, _⟩ => show win0_6.index _ (1 : Fin 2) * 256 ≤ (i 1).val ∧ (i 1).val < win0_6.index _ (1 : Fin 2) * 256 + 256; rw [g1]; omega

/-- THE ARRAY after the region: the layer of the arrays the region finds. -/
theorem final (c : Dev nD) : (dat0 V c).arrAt 6 cfg0.N
    = Cert.Spec.sage (V c main_v9) (V c main_v23) (V c main_arg0) (V c main_v20) (V c main_v21) (V c main_v22) :=
  (dat0 V c).arrAt_eq_of_cover 6 _ (fun t _ => flushed_eq V c t) cover

end Cert.KernelIdeal.Val0

end
-- ==== Proof.Stretch0.lean ====
/-
  The host operations before the first region and the first region, read as values: what the first region
  finds in its operands' arrays, and what it leaves in its output array.
-/
import proofs.«418015_j5815385719105_1_alg».proof.Proof.Gen.KernelIdeal.Frame
import proofs.«418015_j5815385719105_1_alg».proof.Proof.Terms
import proofs.«418015_j5815385719105_1_alg».proof.Proof.Reg0
import Idealize.ShloMosaic.Lib.StableHlo.Run

set_option maxRecDepth 16384

noncomputable section

namespace Cert.KernelIdeal.Val

open Cert.KernelIdeal Cert.KernelIdeal.Gen Idealize.ShloMosaic Idealize.ShloMosaic.TcCoe Idealize.SL.Sem
open Idealize.ShloMosaic.StableHlo

variable (m : (ℓ : Loc nD τ sig) → Buf (Elt Ideal) ℓ) (ρ : Dev nD → PrngReg) (c : Dev nD)

/-! ## What the host operations before the first region leave -/

theorem W1_v9 : W1 m ρ c (Proc.devRef .tc main_v9) = agg m c (m ((c.tc : Thread nD τ).loc main_arg0)) := by
  dsimp only [W1, hostOps0]; after_results; rfl
theorem W1_v13 : W1 m ρ c (Proc.devRef .tc main_v13) = cnt m c := by
  dsimp only [W1, hostOps0]; after_results; rfl
theorem W1_v23 : W1 m ρ c (Proc.devRef .tc main_v23) = cntCol m c := by
  dsimp only [W1, hostOps0]; after_results; rfl
theorem W1_arg0 : W1 m ρ c (Proc.devRef .tc main_arg0) = (m ((c.tc : Thread nD τ).loc main_arg0)) := by
  dsimp only [W1, hostOps0]; after_results
theorem W1_v20 : W1 m ρ c (Proc.devRef .tc main_v20) = wl0 m c := by
  dsimp only [W1, hostOps0]; after_results; rfl
theorem W1_v21 : W1 m ρ c (Proc.devRef .tc main_v21) = wr0 m c := by
  dsimp only [W1, hostOps0]; after_results; rfl
theorem W1_v22 : W1 m ρ c (Proc.devRef .tc main_v22) = bias0 m c := by
  dsimp only [W1, hostOps0]; after_results; rfl
theorem W1_arg3 : W1 m ρ c (Proc.devRef .tc main_arg3) = (m ((c.tc : Thread nD τ).loc main_arg3)) := by
  dsimp only [W1, hostOps0]; after_results
theorem W1_arg4 : W1 m ρ c (Proc.devRef .tc main_arg4) = (m ((c.tc : Thread nD τ).loc main_arg4)) := by
  dsimp only [W1, hostOps0]; after_results
theorem W1_arg5 : W1 m ρ c (Proc.devRef .tc main_arg5) = (m ((c.tc : Thread nD τ).loc main_arg5)) := by
  dsimp only [W1, hostOps0]; after_results
theorem W1_arg6 : W1 m ρ c (Proc.devRef .tc main_arg6) = (m ((c.tc : Thread nD τ).loc main_arg6)) := by
  dsimp only [W1, hostOps0]; after_results
theorem W1_arg7 : W1 m ρ c (Proc.devRef .tc main_arg7) = (m ((c.tc : Thread nD τ).loc main_arg7)) := by
  dsimp only [W1, hostOps0]; after_results
theorem W1_arg8 : W1 m ρ c (Proc.devRef .tc main_arg8) = (m ((c.tc : Thread nD τ).loc main_arg8)) := by
  dsimp only [W1, hostOps0]; after_results
theorem W1_arg9 : W1 m ρ c (Proc.devRef .tc main_arg9) = (m ((c.tc : Thread nD τ).loc main_arg9)) := by
  dsimp only [W1, hostOps0]; after_results

/-! ## What the first region leaves -/

/-- The first region's output array ends at the first layer's output. -/
theorem W2_v24 : W2 m ρ c (Proc.devRef .tc main_v24) = h1 m c := by
  refine (W2_arr m ρ c 6).trans ((Cert.KernelIdeal.Val0.final (V1 m ρ) c).trans ?_)
  show Cert.Spec.sage (W1 m ρ c (Proc.devRef .tc main_v9)) (W1 m ρ c (Proc.devRef .tc main_v23)) (W1 m ρ c (Proc.devRef .tc main_arg0))
    (W1 m ρ c (Proc.devRef .tc main_v20)) (W1 m ρ c (Proc.devRef .tc main_v21)) (W1 m ρ c (Proc.devRef .tc main_v22)) = _
  rw [W1_v9, W1_v23, W1_arg0, W1_v20, W1_v21, W1_v22]
  rfl

/-- A buffer that is no operand of the first region is as the host operations left it. -/
theorem W2_v13 : W2 m ρ c (Proc.devRef .tc main_v13) = cnt m c :=
  (W2_of_ne m ρ c main_v13 (by decide)).trans (W1_v13 m ρ c)
theorem W2_arg3 : W2 m ρ c (Proc.devRef .tc main_arg3) = (m ((c.tc : Thread nD τ).loc main_arg3)) :=
  (W2_of_ne m ρ c main_arg3 (by decide)).trans (W1_arg3 m ρ c)
theorem W2_arg4 : W2 m ρ c (Proc.devRef .tc main_arg4) = (m ((c.tc : Thread nD τ).loc main_arg4)) :=
  (W2_of_ne m ρ c main_arg4 (by decide)).trans (W1_arg4 m ρ c)
theorem W2_arg5 : W2 m ρ c (Proc.devRef .tc main_arg5) = (m ((c.tc : Thread nD τ).loc main_arg5)) :=
  (W2_of_ne m ρ c main_arg5 (by decide)).trans (W1_arg5 m ρ c)
theorem W2_arg6 : W2 m ρ c (Proc.devRef .tc main_arg6) = (m ((c.tc : Thread nD τ).loc main_arg6)) :=
  (W2_of_ne m ρ c main_arg6 (by decide)).trans (W1_arg6 m ρ c)
theorem W2_arg7 : W2 m ρ c (Proc.devRef .tc main_arg7) = (m ((c.tc : Thread nD τ).loc main_arg7)) :=
  (W2_of_ne m ρ c main_arg7 (by decide)).trans (W1_arg7 m ρ c)
theorem W2_arg8 : W2 m ρ c (Proc.devRef .tc main_arg8) = (m ((c.tc : Thread nD τ).loc main_arg8)) :=
  (W2_of_ne m ρ c main_arg8 (by decide)).trans (W1_arg8 m ρ c)
theorem W2_arg9 : W2 m ρ c (Proc.devRef .tc main_arg9) = (m ((c.tc : Thread nD τ).loc main_arg9)) :=
  (W2_of_ne m ρ c main_arg9 (by decide)).trans (W1_arg9 m ρ c)

end Cert.KernelIdeal.Val

end
-- ==== Proof.Reg1.lean ====
/-
  Region 1 (the second layer's kernel), read as values.
  The output array after the region, as one function of the arrays the region finds: grid point `t` computes rows
  `5000·t … 5000·t + 4999` of the result from the same rows of the row-blocked operands and from the whole resident
  operands, the 40 row blocks tile the array, so the array ends at `Cert.Spec.sage` of the operands' arrays.
-/
import proofs.«418015_j5815385719105_1_alg».proof.Proof.Gen.KernelIdeal.Frame
import proofs.«418015_j5815385719105_1_alg».proof.Proof.Spec
import Idealize.ShloMosaic.Lib.Pipeline.Value

set_option maxRecDepth 16384

noncomputable section

namespace Cert.KernelIdeal.Val1

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The body's stored value at (p, q) is the layer's entry of the body's loaded blocks. -/
theorem pay_apply (x0 : Vec Ideal S5000x256 .f32) (x2 : Vec Ideal S5000x1 .f32) (x8 : Vec Ideal S256x256 .f32)
    (x11 : Vec Ideal S1x256 .f32) (x15 : Vec Ideal S5000x256 .f32) (x16 : Vec Ideal S256x256 .f32) (p : Fin 5000) (q : Fin 256) :
    k1_pay1 (F := Ideal) x0 x2 x8 x11 x15 x16 (ix2 p q) = Cert.Spec.sageAt x0 x2 x15 x8 x16 x11 p q := by
  unfold k1_pay1
  simp only [shapeCast_self]
  exact Cert.Spec.body_sage_apply _ rfl x0 x2 x8 x11 x15 x16 _ _ p q

/-- The printed index maps over the grid: the three row-blocked operands and the output move with the point along the
    rows; the two weight matrices and the bias row stay at block (0, 0). -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

theorem lt_N (t : Fin cfg1.N) : t.val < 40 := Nat.lt_of_lt_of_eq t.isLt (N_1 : cfg1.N = 40)

-- reading a block through its window unfolds the window's buffer type out of the program's table of buffers
set_option maxHeartbeats 4000000 in
/-- WHAT POINT `t` WRITES BACK is block `t` of the layer of the arrays the region finds. -/
theorem flushed_eq (c : Dev nD) (t : Fin cfg1.N) :
    (dat1 V c).flushed 6 t = ((cfg1.win 6).blk t).view.read (Elt Ideal)
      (Cert.Spec.sage (V c main_v34) (V c main_v44) (V c main_v24) (V c main_v41) (V c main_v42) (V c main_v43)) := by
  show (cfg1.win 6).cut (grid1.coords t) ((dat1 V c).after 6 t) = _
  rw [after1_6]
  unfold out1_6
  rw [View.canon_unit_zero hz]
  simp only [View.ld_unit_zero (S := S5000x256) hz, View.ld_unit_zero (S := S5000x1) hz,
    View.ld_unit_zero (S := S256x256) hz, View.ld_unit_zero (S := S1x256) hz]
  obtain ⟨a0, a1, b0, b1, c0, c1, d0, d1, e0, e1, f0, f1, g0, g1⟩ := idx_facts t
  have ht := lt_N t
  funext j
  obtain ⟨p, q, rfl⟩ : ∃ (p : Fin 5000) (q : Fin 256), j = ix2 p q := ⟨j 0, j 1, eq_ix2 j⟩
  show k1_pay1 (F := Ideal) (iblk1 V c 0 t) (iblk1 V c 1 t) (iblk1 V c 3 t) (iblk1 V c 5 t) (iblk1 V c 2 t) (iblk1 V c 4 t) (ix2 p q)
    = Cert.Spec.sage (V c main_v34) (V c main_v44) (V c main_v24) (V c main_v41) (V c main_v42) (V c main_v43)
        (((cfg1.win 6).blk t).view.emb (ix2 p q))
  refine (pay_apply (iblk1 V c 0 t) (iblk1 V c 1 t) (iblk1 V c 3 t) (iblk1 V c 5 t) (iblk1 V c 2 t) (iblk1 V c 4 t) p q).trans ?_
  -- the output's entry (p, q) of block t sits at row 5000·t + p
  have hemb : ((cfg1.win 6).blk t).view.emb (ix2 p q)
      = ix2 (⟨t.val * 5000 + p.val, by have := p.isLt; omega⟩ : Fin 200000) q := by
    funext a; apply Fin.ext
    match a with
    | ⟨0, _⟩ => show win1_6.index t (0 : Fin 2) * 5000 + 1 * p.val = t.val * 5000 + p.val; rw [g0]; omega
    | ⟨1, _⟩ => show win1_6.index t (1 : Fin 2) * 256 + 1 * q.val = q.val; rw [g1]; omega
  rw [hemb, Cert.Spec.sage_ix2]
  -- each operand's block, read where the body reads it, is the operand's array at the matching row
  have hA : ∀ k : Fin 256, (iblk1 V c 0 t : Vec Ideal S5000x256 .f32) (ix2 p k)
      = (V c main_v34 : S200000x256.Idx → EReal) (ix2 (⟨t.val * 5000 + p.val, by have := p.isLt; omega⟩ : Fin 200000) k) := fun k => by
    show V c main_v34 (((cfg1.win 0).blk t).view.emb (ix2 p k)) = _
    congr 1
    funext a; apply Fin.ext
    match a with
    | ⟨0, _⟩ => show win1_0.index t (0 : Fin 2) * 5000 + 1 * p.val = t.val * 5000 + p.val; rw [a0]; omega
    | ⟨1, _⟩ => show win1_0.index t (1 : Fin 2) * 256 + 1 * k.val = k.val; rw [a1]; omega
  have hC : (iblk1 V c 1 t : Vec Ideal S5000x1 .f32) (ix2 p (0 : Fin 1))
      = (V c main_v44 : S200000x1.Idx → EReal) (ix2 (⟨t.val * 5000 + p.val, by have := p.isLt; omega⟩ : Fin 200000) (0 : Fin 1)) := by
    show V c main_v44 (((cfg1.win 1).blk t).view.emb (ix2 p (0 : Fin 1))) = _
    congr 1
    funext a; apply Fin.ext
    match a with
    | ⟨0, _⟩ => show win1_1.index t (0 : Fin 2) * 5000 + 1 * p.val = t.val * 5000 + p.val; rw [b0]; omega
    | ⟨1, _⟩ => show win1_1.index t (1 : Fin 2) * 1 + 1 * 0 = 0; rw [b1]
  have hX : ∀ k : Fin 256, (iblk1 V c 2 t : Vec Ideal S5000x256 .f32) (ix2 p k)
      = (V c main_v24 : S200000x256.Idx → EReal) (ix2 (⟨t.val * 5000 + p.val, by have := p.isLt; omega⟩ : Fin 200000) k) := fun k => by
    show V c main_v24 (((cfg1.win 2).blk t).view.emb (ix2 p k)) = _
    congr 1
    funext a; apply Fin.ext
    match a with
    | ⟨0, _⟩ => show win1_2.index t (0 : Fin 2) * 5000 + 1 * p.val = t.val * 5000 + p.val; rw [c0]; omega
    | ⟨1, _⟩ => show win1_2.index t (1 : Fin 2) * 256 + 1 * k.val = k.val; rw [c1]; omega
  have hL : ∀ k : Fin 256, (iblk1 V c 3 t : Vec Ideal S256x256 .f32) (ix2 k q) = (V c main_v41 : S256x256.Idx → EReal) (ix2 k q) := fun k => by
    show V c main_v41 (((cfg1.win 3).blk t).view.emb (ix2 k q)) = _
    congr 1
    funext a; apply Fin.ext
    match a with
    | ⟨0, _⟩ => show win1_3.index t (0 : Fin 2) * 256 + 1 * k.val = k.val; rw [d0]; omega
    | ⟨1, _⟩ => show win1_3.index t (1 : Fin 2) * 256 + 1 * q.val = q.val; rw [d1]; omega
  have hR : ∀ k : Fin 256, (iblk1 V c 4 t : Vec Ideal S256x256 .f32) (ix2 k q) = (V c main_v42 : S256x256.Idx → EReal) (ix2 k q) := fun k => by
    show V c main_v42 (((cfg1.win 4).blk t).view.emb (ix2 k q)) = _
    congr 1
    funext a; apply Fin.ext
    match a with
    | ⟨0, _⟩ => show win1_4.index t (0 : Fin 2) * 256 + 1 * k.val = k.val; rw [e0]; omega
    | ⟨1, _⟩ => show win1_4.index t (1 : Fin 2) * 256 + 1 * q.val = q.val; rw [e1]; omega
  have hB : (iblk1 V c 5 t : Vec Ideal S1x256 .f32) (ix2 (0 : Fin 1) q) = (V c main_v43 : S1x256.Idx → EReal) (ix2 (0 : Fin 1) q) := by
    show V c main_v43 (((cfg1.win 5).blk t).view.emb (ix2 (0 : Fin 1) q)) = _
    congr 1
    funext a; apply Fin.ext
    match a with
    | ⟨0, _⟩ => show win1_5.index t (0 : Fin 2) * 1 + 1 * 0 = 0; rw [f0]
    | ⟨1, _⟩ => show win1_5.index t (1 : Fin 2) * 256 + 1 * q.val = q.val; rw [f1]; omega
  unfold Cert.Spec.sageAt
  rw [hC, hB]
  simp only [hA, hX, hL, hR]

/-- An index of the array is in point `t`'s block iff each coordinate is in the block's range on its axis. -/
theorem mem_blk (t : Fin cfg1.N) (i : S200000x256.Idx) :
    i ∈ ((cfg1.win 6).blk t).view.set ↔ ∀ a : Fin 2, win1_6.index t a * S5000x256.size a ≤ (i a).val ∧ (i a).val < win1_6.index t a * S5000x256.size a + S5000x256.size a := by
  show i ∈ ((View.whole main_v45).slice (win1_6.rect t)).set ↔ _
  rw [View.set_slice_whole, Rect.mem_set_unit]
  exact Iff.rfl

/-- Every row of the array is in the block of the point its row number divided by 5000 names. -/
theorem cover (i : S200000x256.Idx) : ∃ t : Fin cfg1.N, (cfg1.win 6).flush t = true ∧ i ∈ ((cfg1.win 6).blk t).view.set := by
  have hi0 : (i 0).val < 200000 := (i 0).isLt
  have hi1 : (i 1).val < 256 := (i 1).isLt
  have hN : cfg1.N = 40 := N_1
  refine ⟨⟨(i 0).val / 5000, by rw [hN]; omega⟩, flush1_6 _, ?_⟩
  rw [mem_blk]
  obtain ⟨-, -, -, -, -, -, -, -, -, -, -, -, g0, g1⟩ := idx_facts ⟨(i 0).val / 5000, by rw [hN]; omega⟩
  intro a
  match a with
  | ⟨0, _⟩ => show win1_6.index _ (0 : Fin 2) * 5000 ≤ (i 0).val ∧ (i 0).val < win1_6.index _ (0 : Fin 2) * 5000 + 5000; rw [g0]; show (i 0).val / 5000 * 5000 ≤ (i 0).val ∧ (i 0).val < (i 0).val / 5000 * 5000 + 5000; omega
  | ⟨1, _⟩ => show win1_6.index _ (1 : Fin 2) * 256 ≤ (i 1).val ∧ (i 1).val < win1_6.index _ (1 : Fin 2) * 256 + 256; rw [g1]; omega

/-- THE ARRAY after the region: the layer of the arrays the region finds. -/
theorem final (c : Dev nD) : (dat1 V c).arrAt 6 cfg1.N
    = Cert.Spec.sage (V c main_v34) (V c main_v44) (V c main_v24) (V c main_v41) (V c main_v42) (V c main_v43) :=
  (dat1 V c).arrAt_eq_of_cover 6 _ (fun t _ => flushed_eq V c t) cover

end Cert.KernelIdeal.Val1

end
-- ==== Proof.Stretch1.lean ====
/-
  The host operations between the first two regions and the second region, read as values.
-/
import proofs.«418015_j5815385719105_1_alg».proof.Proof.Gen.KernelIdeal.Frame
import proofs.«418015_j5815385719105_1_alg».proof.Proof.Terms
import proofs.«418015_j5815385719105_1_alg».proof.Proof.Stretch0
import proofs.«418015_j5815385719105_1_alg».proof.Proof.Reg1
import Idealize.ShloMosaic.Lib.StableHlo.Run

set_option maxRecDepth 16384

noncomputable section

namespace Cert.KernelIdeal.Val

open Cert.KernelIdeal Cert.KernelIdeal.Gen Idealize.ShloMosaic Idealize.ShloMosaic.TcCoe Idealize.SL.Sem
open Idealize.ShloMosaic.StableHlo

variable (m : (ℓ : Loc nD τ sig) → Buf (Elt Ideal) ℓ) (ρ : Dev nD → PrngReg) (c : Dev nD)

/-! ## What the host operations before the second region leave -/

theorem W3_v34 : W3 m ρ c (Proc.devRef .tc main_v34) = agg m c (h1 m c) := by
  dsimp only [W3, hostOps1]; after_results
  rw [W2_arg9, W2_arg8, W2_v24]; rfl
theorem W3_v44 : W3 m ρ c (Proc.devRef .tc main_v44) = cntCol m c := by
  dsimp only [W3, hostOps1]; after_results
  rw [W2_v13]; rfl
theorem W3_v24 : W3 m ρ c (Proc.devRef .tc main_v24) = h1 m c := by
  dsimp only [W3, hostOps1]; after_results
  exact W2_v24 m ρ c
theorem W3_v41 : W3 m ρ c (Proc.devRef .tc main_v41) = wl1 m c := by
  dsimp only [W3, hostOps1]; after_results
  rw [W2_arg3]; rfl
theorem W3_v42 : W3 m ρ c (Proc.devRef .tc main_v42) = wr1 m c := by
  dsimp only [W3, hostOps1]; after_results
  rw [W2_arg5]; rfl
theorem W3_v43 : W3 m ρ c (Proc.devRef .tc main_v43) = bias1 m c := by
  dsimp only [W3, hostOps1]; after_results
  rw [W2_arg4]; rfl
theorem W3_arg6 : W3 m ρ c (Proc.devRef .tc main_arg6) = (m ((c.tc : Thread nD τ).loc main_arg6)) := by
  dsimp only [W3, hostOps1]; after_results
  exact W2_arg6 m ρ c
theorem W3_arg7 : W3 m ρ c (Proc.devRef .tc main_arg7) = (m ((c.tc : Thread nD τ).loc main_arg7)) := by
  dsimp only [W3, hostOps1]; after_results
  exact W2_arg7 m ρ c

/-! ## What the second region leaves -/

/-- The second region's output array ends at the second layer's output. -/
theorem W4_v45 : W4 m ρ c (Proc.devRef .tc main_v45) = h2 m c := by
  refine (W4_arr m ρ c 6).trans ((Cert.KernelIdeal.Val1.final (V3 m ρ) c).trans ?_)
  show Cert.Spec.sage (W3 m ρ c (Proc.devRef .tc main_v34)) (W3 m ρ c (Proc.devRef .tc main_v44)) (W3 m ρ c (Proc.devRef .tc main_v24))
    (W3 m ρ c (Proc.devRef .tc main_v41)) (W3 m ρ c (Proc.devRef .tc main_v42)) (W3 m ρ c (Proc.devRef .tc main_v43)) = _
  rw [W3_v34, W3_v44, W3_v24, W3_v41, W3_v42, W3_v43]
  rfl

/-- A buffer that is no operand of the second region is as the host operations left it. -/
theorem W4_arg6 : W4 m ρ c (Proc.devRef .tc main_arg6) = (m ((c.tc : Thread nD τ).loc main_arg6)) :=
  (W4_of_ne m ρ c main_arg6 (by decide)).trans (W3_arg6 m ρ c)
theorem W4_arg7 : W4 m ρ c (Proc.devRef .tc main_arg7) = (m ((c.tc : Thread nD τ).loc main_arg7)) :=
  (W4_of_ne m ρ c main_arg7 (by decide)).trans (W3_arg7 m ρ c)

end Cert.KernelIdeal.Val

end
-- ==== Proof.Reg2.lean ====
/-
  Region 2 (the last linear layer's kernel), read as values.
  The output array after the region, as one function of the arrays the region finds: grid point `t` computes rows
  `5000·t … 5000·t + 4999` of the result from the same rows of the row-blocked operands and from the whole resident
  operands, the 40 row blocks tile the array, so the array ends at `Cert.Spec.fc` of the operands' arrays.
-/
import proofs.«418015_j5815385719105_1_alg».proof.Proof.Gen.KernelIdeal.Frame
import proofs.«418015_j5815385719105_1_alg».proof.Proof.Spec
import Idealize.ShloMosaic.Lib.Pipeline.Value

set_option maxRecDepth 16384

noncomputable section

namespace Cert.KernelIdeal.Val2

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The body's stored value at (p, q) is the last layer's entry of the body's loaded blocks. -/
theorem pay_apply (x0 : Vec Ideal S5000x256 .f32) (x2 : Vec Ideal S256x128 .f32) (x5 : Vec Ideal S1x128 .f32)
    (p : Fin 5000) (q : Fin 128) :
    k2_pay1 (F := Ideal) x0 x2 x5 (ix2 p q) = Cert.Spec.fcAt x0 x2 x5 p q := by
  unfold k2_pay1
  simp only [shapeCast_self]
  exact Cert.Spec.body_fc_apply _ rfl x0 x2 x5 _ p q

/-- The printed index maps over the grid: the row-blocked operand and the output move with the point along the rows;
    the weight matrix and the bias row stay at block (0, 0). -/
theorem idx_facts : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

theorem lt_N (t : Fin cfg2.N) : t.val < 40 := Nat.lt_of_lt_of_eq t.isLt (N_2 : cfg2.N = 40)

/-- WHAT POINT `t` WRITES BACK is block `t` of the last layer of the arrays the region finds. -/
theorem flushed_eq (c : Dev nD) (t : Fin cfg2.N) :
    (dat2 V c).flushed 3 t = ((cfg2.win 3).blk t).view.read (Elt Ideal)
      (Cert.Spec.fc (V c main_v45) (V c main_v46) (V c main_v47)) := by
  show (cfg2.win 3).cut (grid2.coords t) ((dat2 V c).after 3 t) = _
  rw [after2_3]
  unfold out2_3
  rw [View.canon_unit_zero hz]
  simp only [View.ld_unit_zero (S := S5000x256) hz, View.ld_unit_zero (S := S256x128) hz, View.ld_unit_zero (S := S1x128) hz]
  obtain ⟨a0, a1, b0, b1, c0, c1, g0, g1⟩ := idx_facts t
  have ht := lt_N t
  funext j
  obtain ⟨p, q, rfl⟩ : ∃ (p : Fin 5000) (q : Fin 128), j = ix2 p q := ⟨j 0, j 1, eq_ix2 j⟩
  show k2_pay1 (F := Ideal) (iblk2 V c 0 t) (iblk2 V c 1 t) (iblk2 V c 2 t) (ix2 p q)
    = Cert.Spec.fc (V c main_v45) (V c main_v46) (V c main_v47) (((cfg2.win 3).blk t).view.emb (ix2 p q))
  refine (pay_apply (iblk2 V c 0 t) (iblk2 V c 1 t) (iblk2 V c 2 t) p q).trans ?_
  -- the output's entry (p, q) of block t sits at row 5000·t + p
  have hemb : ((cfg2.win 3).blk t).view.emb (ix2 p q)
      = ix2 (⟨t.val * 5000 + p.val, by have := p.isLt; omega⟩ : Fin 200000) q := by
    funext a; apply Fin.ext
    match a with
    | ⟨0, _⟩ => show win2_3.index t (0 : Fin 2) * 5000 + 1 * p.val = t.val * 5000 + p.val; rw [g0]; omega
    | ⟨1, _⟩ => show win2_3.index t (1 : Fin 2) * 128 + 1 * q.val = q.val; rw [g1]; omega
  rw [hemb, Cert.Spec.fc_ix2]
  -- each operand's block, read where the body reads it, is the operand's array at the matching row
  have hG : ∀ k : Fin 256, (iblk2 V c 0 t : Vec Ideal S5000x256 .f32) (ix2 p k)
      = (V c main_v45 : S200000x256.Idx → EReal) (ix2 (⟨t.val * 5000 + p.val, by have := p.isLt; omega⟩ : Fin 200000) k) := fun k => by
    show V c main_v45 (((cfg2.win 0).blk t).view.emb (ix2 p k)) = _
    congr 1
    funext a; apply Fin.ext
    match a with
    | ⟨0, _⟩ => show win2_0.index t (0 : Fin 2) * 5000 + 1 * p.val = t.val * 5000 + p.val; rw [a0]; omega
    | ⟨1, _⟩ => show win2_0.index t (1 : Fin 2) * 256 + 1 * k.val = k.val; rw [a1]; omega
  have hL : ∀ k : Fin 256, (iblk2 V c 1 t : Vec Ideal S256x128 .f32) (ix2 k q) = (V c main_v46 : S256x128.Idx → EReal) (ix2 k q) := fun k => by
    show V c main_v46 (((cfg2.win 1).blk t).view.emb (ix2 k q)) = _
    congr 1
    funext a; apply Fin.ext
    match a with
    | ⟨0, _⟩ => show win2_1.index t (0 : Fin 2) * 256 + 1 * k.val = k.val; rw [b0]; omega
    | ⟨1, _⟩ => show win2_1.index t (1 : Fin 2) * 128 + 1 * q.val = q.val; rw [b1]; omega
  have hB : (iblk2 V c 2 t : Vec Ideal S1x128 .f32) (ix2 (0 : Fin 1) q) = (V c main_v47 : S1x128.Idx → EReal) (ix2 (0 : Fin 1) q) := by
    show V c main_v47 (((cfg2.win 2).blk t).view.emb (ix2 (0 : Fin 1) q)) = _
    congr 1
    funext a; apply Fin.ext
    match a with
    | ⟨0, _⟩ => show win2_2.index t (0 : Fin 2) * 1 + 1 * 0 = 0; rw [c0]
    | ⟨1, _⟩ => show win2_2.index t (1 : Fin 2) * 128 + 1 * q.val = q.val; rw [c1]; omega
  unfold Cert.Spec.fcAt
  rw [hB]
  simp only [hG, hL]

/-- An index of the array is in point `t`'s block iff each coordinate is in the block's range on its axis. -/
theorem mem_blk (t : Fin cfg2.N) (i : S200000x128.Idx) :
    i ∈ ((cfg2.win 3).blk t).view.set ↔ ∀ a : Fin 2, win2_3.index t a * S5000x128.size a ≤ (i a).val ∧ (i a).val < win2_3.index t a * S5000x128.size a + S5000x128.size a := by
  show i ∈ ((View.whole main_v48).slice (win2_3.rect t)).set ↔ _
  rw [View.set_slice_whole, Rect.mem_set_unit]
  exact Iff.rfl

/-- Every row of the array is in the block of the point its row number divided by 5000 names. -/
theorem cover (i : S200000x128.Idx) : ∃ t : Fin cfg2.N, (cfg2.win 3).flush t = true ∧ i ∈ ((cfg2.win 3).blk t).view.set := by
  have hi0 : (i 0).val < 200000 := (i 0).isLt
  have hi1 : (i 1).val < 128 := (i 1).isLt
  have hN : cfg2.N = 40 := N_2
  refine ⟨⟨(i 0).val / 5000, by rw [hN]; omega⟩, flush2_3 _, ?_⟩
  rw [mem_blk]
  obtain ⟨-, -, -, -, -, -, g0, g1⟩ := idx_facts ⟨(i 0).val / 5000, by rw [hN]; omega⟩
  intro a
  match a with
  | ⟨0, _⟩ => show win2_3.index _ (0 : Fin 2) * 5000 ≤ (i 0).val ∧ (i 0).val < win2_3.index _ (0 : Fin 2) * 5000 + 5000; rw [g0]; show (i 0).val / 5000 * 5000 ≤ (i 0).val ∧ (i 0).val < (i 0).val / 5000 * 5000 + 5000; omega
  | ⟨1, _⟩ => show win2_3.index _ (1 : Fin 2) * 128 ≤ (i 1).val ∧ (i 1).val < win2_3.index _ (1 : Fin 2) * 128 + 128; rw [g1]; omega

/-- THE ARRAY after the region: the last layer of the arrays the region finds. -/
theorem final (c : Dev nD) : (dat2 V c).arrAt 3 cfg2.N = Cert.Spec.fc (V c main_v45) (V c main_v46) (V c main_v47) :=
  (dat2 V c).arrAt_eq_of_cover 3 _ (fun t _ => flushed_eq V c t) cover

end Cert.KernelIdeal.Val2

end
-- ==== Proof.Stretch2.lean ====
/-
  The host operations before the last region and the last region, read as values: the program's result buffer
  ends at `out`, one term of the argument arrays.
-/
import proofs.«418015_j5815385719105_1_alg».proof.Proof.Gen.KernelIdeal.Frame
import proofs.«418015_j5815385719105_1_alg».proof.Proof.Terms
import proofs.«418015_j5815385719105_1_alg».proof.Proof.Stretch1
import proofs.«418015_j5815385719105_1_alg».proof.Proof.Reg2
import Idealize.ShloMosaic.Lib.StableHlo.Run

set_option maxRecDepth 16384

noncomputable section

namespace Cert.KernelIdeal.Val

open Cert.KernelIdeal Cert.KernelIdeal.Gen Idealize.ShloMosaic Idealize.ShloMosaic.TcCoe Idealize.SL.Sem
open Idealize.ShloMosaic.StableHlo

variable (m : (ℓ : Loc nD τ sig) → Buf (Elt Ideal) ℓ) (ρ : Dev nD → PrngReg) (c : Dev nD)

/-! ## What the host operations before the last region leave -/

theorem W5_v45 : W5 m ρ c (Proc.devRef .tc main_v45) = h2 m c := by
  dsimp only [W5, hostOps2]; after_results
  exact W4_v45 m ρ c
theorem W5_v46 : W5 m ρ c (Proc.devRef .tc main_v46) = fcw m c := by
  dsimp only [W5, hostOps2]; after_results
  rw [W4_arg6]; rfl
theorem W5_v47 : W5 m ρ c (Proc.devRef .tc main_v47) = fcb m c := by
  dsimp only [W5, hostOps2]; after_results
  rw [W4_arg7]; rfl

/-! ## What the last region leaves -/

/-- The result buffer ends at the program's result term. -/
theorem W6_v48 : W6 m ρ c (Proc.devRef .tc main_v48) = out m c := by
  refine (W6_arr m ρ c 3).trans ((Cert.KernelIdeal.Val2.final (V5 m ρ) c).trans ?_)
  show Cert.Spec.fc (W5 m ρ c (Proc.devRef .tc main_v45)) (W5 m ρ c (Proc.devRef .tc main_v46)) (W5 m ρ c (Proc.devRef .tc main_v47)) = _
  rw [W5_v45, W5_v46, W5_v47]
  rfl

end Cert.KernelIdeal.Val

end
-- ==== Proof.Bridge.lean ====
/-
  The reference's result term is the kernel program's result term.

  The reference spells each layer with whole-array host operations; `Spec.host_sage_eq` and `Spec.host_fc_eq` read those
  as `Spec.sage` and `Spec.fc`, and what is left on both sides is the same gathers, scatters, slices and transposes of
  the same argument arrays.
-/
import proofs.«418015_j5815385719105_1_alg».proof.Proof.Terms
import proofs.«418015_j5815385719105_1_alg».proof.Proof.Gen.ReferenceIdeal.Run

set_option maxRecDepth 16384

noncomputable section

namespace Cert.Bridge

open Idealize.ShloMosaic Idealize.ShloMosaic.TcCoe Idealize.SL.Sem

/-- From memories that agree on the arguments the reference's result term is `Val.out`. -/
theorem ref_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (h7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (h8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))
    (h9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) :
    Cert.ReferenceIdeal.Value.res_main_v208 (F := Ideal) m' c = Cert.KernelIdeal.Val.out m c := by
  unfold Cert.ReferenceIdeal.Value.res_main_v208
  rw [h0, h3, h4, h5, h6, h7, h8, h9]
  -- the last layer, then the second layer, then the first (which the second reads twice)
  rw [Cert.Spec.host_fc_eq Cert.ReferenceIdeal.dot_S200000x256_S256x128_S200000x128_1_0_0_1_n_n rfl _ _ _ _ _ Cert.KernelIdeal.Gen.shapeCasts_S128_S1x128]
  rw [Cert.Spec.host_sage_eq Cert.ReferenceIdeal.dot_S200000x256_S256x256_S200000x256_1_0_0_1_n_n rfl _ _ _ _ _ _ _ _ _ _ _ _
    Cert.KernelIdeal.Gen.shapeCasts_S200000_S200000x1 Cert.KernelIdeal.Gen.shapeCasts_S256_S1x256]
  rw [Cert.Spec.host_sage_eq Cert.ReferenceIdeal.dot_S200000x256_S256x256_S200000x256_1_0_0_1_n_n rfl _ _ _ _ _ _ _ _ _ _ _ _
    Cert.KernelIdeal.Gen.shapeCasts_S200000_S200000x1 Cert.KernelIdeal.Gen.shapeCasts_S256_S1x256]
  rfl

end Cert.Bridge

end
-- ==== Proof.lean ====
/-
  The certificate of the two-layer mean-aggregating graph network: the three frames, and the kernel program's result
  equal to the reference's as extended reals.

  The kernel program keeps the gathers and scatter-adds of the edge list on the host and runs each layer's dense part —
  the division by the clamped neighbour counts, the two products, the bias and the clamp at zero — in a kernel region
  over 40 blocks of 5000 rows, then the last linear layer in a third region. Every output row depends on the same row
  of the row-blocked operands only, so each region's output array is one whole-array function of its operands
  (`Reg0`, `Reg1`, `Reg2` over `Spec`); threading those through the host operations between the regions gives the
  result as one term of the arguments (`Stretch0` … `Stretch2`, `Terms`), and the reference's host operations read as
  the same term (`Bridge`). No arithmetic law is needed: both sides are the same sums in the same order, so the
  precondition is not opened. The idealization rewrote nothing, so `preserves` is trivial.
-/
import proofs.«418015_j5815385719105_1_alg».proof.Defs
import proofs.«418015_j5815385719105_1_alg».proof.Proof.Gen.Kernel
import proofs.«418015_j5815385719105_1_alg».proof.Proof.Gen.Kernel.Skeleton
import proofs.«418015_j5815385719105_1_alg».proof.Proof.Gen.Kernel.Launch
import proofs.«418015_j5815385719105_1_alg».proof.Proof.Gen.Kernel.Points
import proofs.«418015_j5815385719105_1_alg».proof.Proof.Gen.Kernel.Frame
import proofs.«418015_j5815385719105_1_alg».proof.Proof.Gen.KernelIdeal
import proofs.«418015_j5815385719105_1_alg».proof.Proof.Gen.KernelIdeal.Skeleton
import proofs.«418015_j5815385719105_1_alg».proof.Proof.Gen.KernelIdeal.Launch
import proofs.«418015_j5815385719105_1_alg».proof.Proof.Gen.KernelIdeal.Points
import proofs.«418015_j5815385719105_1_alg».proof.Proof.Gen.KernelIdeal.Frame
import proofs.«418015_j5815385719105_1_alg».proof.Proof.Gen.ReferenceIdeal
import proofs.«418015_j5815385719105_1_alg».proof.Proof.Gen.Pre_finite_inputs
import proofs.«418015_j5815385719105_1_alg».proof.Proof.Gen.ReferenceIdeal.Run
import proofs.«418015_j5815385719105_1_alg».proof.Proof.RunNamed
import proofs.«418015_j5815385719105_1_alg».proof.Proof.Stretch2
import proofs.«418015_j5815385719105_1_alg».proof.Proof.Bridge
import Idealize.ShloMosaic.Adequacy
import Idealize.ShloMosaic.Init

noncomputable section

namespace Cert.Proof

open Idealize.ShloMosaic Idealize.SL.Sem

/-- The word-level kernel program runs and leaves its arguments unchanged. -/
theorem frame_k : Cert.frame_Kernel := fun m ρ _ => Cert.Kernel.Gen.frame m ρ

/-- So does the idealized kernel program. -/
theorem frame_ki : Cert.frame_KernelIdeal := fun m ρ _ => Cert.KernelIdeal.Gen.frame m ρ

/-- The reference is host operations only: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both programs end with the result buffer at `Val.out` of the arguments: the kernel program by the three regions'
    values threaded through its host operations, the reference by reading its host operations as the same layers. -/
theorem algebraic : Cert.algebraic_KernelIdeal_ReferenceIdeal := by
  intro m ρ m' ρ' _ hagree
  refine ⟨fun c => Cert.KernelIdeal.Val.out m c, ?_, ?_⟩
  · exact (θ_run Cert.KernelIdeal.defs _ _).mono
      (fun _ h c => ⟨(h c).1.trans (Cert.KernelIdeal.Val.W6_v48 m ρ c), (h c).2⟩)
      (Cert.KernelIdeal.Named.run_named (F := Ideal) m ρ)
  · refine (θ_run Cert.ReferenceIdeal.defs _ _).mono (fun _ h c => ⟨(h c).1.trans ?_, (h c).2⟩)
      (Cert.ReferenceIdeal.Value.run (F := Ideal) m' ρ')
    obtain ⟨h0, -, -, h3, h4, h5, h6, h7, h8, h9, -⟩ := hagree c
    exact Cert.Bridge.ref_eq m m' c h0 h3 h4 h5 h6 h7 h8 h9

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
